-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩
abbrev S8192 : Shape := ⟨1, ![8192]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg0 : FVec F S8192x8192 .f32) (main_v13 : IVec S_ 1) (main_v14 : IVec S8192x8192 32) (main_v15 : IVec S8192x8192 32) (main_v16 : IVec S8192x8192 32) : IVec S_ 1 :=
  let main_v17 : IVec S8192x8192 32 := addi main_v14 main_v16
  let main_v18 : IVec S8192x8192 1 := cmpi .eq main_v17 main_v15
  let main_v19 : FVec F S8192x8192 .f32 := uitofp .f32 main_v18
  let main_v20 : FVec F S8192x8192 .f32 := addf main_arg0 main_v19
  let main_cst_5 : FVec F S_ .f32 := constant S_ .f32 0x00000000#32
  let main_v21 : FVec F S8192 .f32 := (fun x v => Host.reduceAdd x v reducesTo_S8192x8192_S8192_d1 h_S_) main_v20 main_cst_5
  let main_cst_6 : FVec F S_ .f32 := constant S_ .f32 0x00000000#32
  let main_v22 : FVec F S8192 .f32 := broadcastInDim S8192 ![] bcast_S_S8192 main_cst_6
  let main_v23 : IVec S8192 1 := cmpf .ogt main_v21 main_v22
  let main_c_7 : IVec S_ 1 := constantI S_ 1 1#1
  let main_v24 : IVec S_ 1 := (fun x v => Host.reduce IntOp.andi x v reducesTo_S8192_S_d0 h_S_) main_v23 main_c_7
  let main_v25 : IVec S_ 1 := andi main_v13 main_v24
  main_v25

def fn {F : FTy → Type} [FloatOps F] (main_arg0 : FVec F S8192x8192 .f32) (main_arg1 : FVec F S8192x512 .f32) (main_arg2 : FVec F S512x512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : IVec S8192x8192 32 := iotaInDim S8192x8192 32 0
  let main_v15 : IVec S8192x8192 32 := iotaInDim S8192x8192 32 1
  let main_c_4 : IVec S_ 32 := constantI S_ 32 0#32
  let main_v16 : IVec S8192x8192 32 := broadcastInDim S8192x8192 ![] bcast_S_S8192x8192 main_c_4
  fn_part1 (F := F) main_arg0 main_v13 main_v14 main_v15 main_v16
-- ==== Kernel.lean ====
abbrev S8192x8192 : Shape := ⟨2, ![8192, 8192]⟩
abbrev S8192x512 : Shape := ⟨2, ![8192, 512]⟩
abbrev S512x512 : Shape := ⟨2, ![512, 512]⟩
abbrev S8192x1 : Shape := ⟨2, ![8192, 1]⟩
abbrev S256x8192 : Shape := ⟨2, ![256, 8192]⟩
abbrev S256x1 : Shape := ⟨2, ![256, 1]⟩
abbrev S256 : Shape := ⟨1, ![256]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x1, .f32⟩
  | .hbm, ⟨4, _⟩ => ⟨S8192x512, .f32⟩
  | .local _ .vmem, ⟨0, _⟩ => ⟨S256x8192, .f32⟩
  | .local _ .vmem, ⟨1, _⟩ => ⟨S256x8192, .f32⟩
  | .local _ .vmem, ⟨2, _⟩ => ⟨S256x1, .f32⟩
  | .local _ .vmem, ⟨3, _⟩ => ⟨S256x1, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_11 : BitVec 32 := 0#32
  let v28 : BitVec 1 := Scalar.cmpi .ne v27 c0_i32_11
  v28

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  iota_S512x512_d1_w32 : S512x512.Iotas .tc 32 [1]
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  bitsLt_bf16_f32 : FTy.bits .bf16 < FTy.bits .f32
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .f32 = 32 ∨ (Rect.block (s := S8192x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x512.size a
  hwx1_1 : ∀ i : grid1.Coords, EltTy.bits .f32 = 32 ∨ (Rect.block (s := S8192x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .f32 = 32 ∨ (Rect.block (s := S512x512) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S8192x512.size a
  hwx1_5 : ∀ i : grid1.Coords, EltTy.bits .f32 = 32 ∨ (Rect.block (s := S8192x512) S512x512.size (cc1_transform_5 i) (hinb1_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S512x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S512x512 : Shape := ⟨2, ![512, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S512x512, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x512, .f32⟩
  | .hbm, ⟨24, _⟩ => ⟨S8192x512, .f32⟩
  | .hbm, ⟨25, _⟩ => ⟨S_, .f32⟩
  | .hbm, ⟨26, _⟩ => ⟨S8192x512, .f32⟩
  | .hbm, ⟨27, _⟩ => ⟨S8192x512, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x512 : S_.BroadcastsInDim S8192x512 (![] : Fin 0 → Fin S8192x512.rank)
  dot_S8192x8192_S8192x512_S8192x512_1_0_0_1_n_n_wf : DotDims.WF S8192x8192 S8192x512 S8192x512 [1] [0] [0] [1] [] []
  dot_S8192x512_S512x512_S8192x512_1_0_0_1_n_n_wf : DotDims.WF S8192x512 S512x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.KB.Deg.lean ====
/-
  The degree kernel (the program's first kernel region) at any float instance, stated at the buffer contents `V` the
  region is entered from.  Each of the 32 grid points loads a block of 256 rows of the adjacency matrix, sums every row,
  adds one and stores the reciprocal square root into the matching 256 × 1 block of the normaliser; the output buffer is
  read once before it is overwritten, and what was read is not used.
-/
import proofs.«181658_j16363825397897_1_alg».proof.Proof.Gen.Kernel.Launch
import proofs.«181658_j16363825397897_1_alg».proof.Proof.Gen.Kernel.Skeleton
import proofs.«181658_j16363825397897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 8192 block and the whole 256 × 1 block as rectangles. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the normaliser's staging buffer: its one store, of the reciprocal square roots of the
    block's row sums plus one. -/
def out0_1 (x0 : Vec F S256x8192 .f32) : Vec F S256x1 .f32 :=
  View.canon [⟨rOut0, k0_pay1 (View.ld x0 rIn0)⟩]

/-- The store covers the buffer. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging memrefs: the input's kept, the output's at `out0_1` of the input's. -/
theorem sound_kernel0 (c : Dev nD) (i : grid0.Coords) (E : Set ℕ) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__deg_kernel i arg1 harg1 arg2 harg2) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree kernel's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c _ Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree kernel's pipeline, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.GcRuns.lean ====
/-
  The graph-convolution kernel (the program's second kernel region, a 16 × 16 grid: row block `i`, column block `j`):
  what its three control cases share.  The body zeroes its accumulator when `j = 0`, always adds the block product
  `(A_blk + [i = j]·I) · (H_blk ∘ d_j)` to it, and when `j = 15` stores `max ((acc ∘ d_i) · W, 0)` into the output block.
  Case A is `j = 0`, case C is `j = 15`, case B the points between.  Here: the two branch conditions in closed form
  over the grid, where the output window is idle, the staging memrefs at a point, and the region's invariant with the
  accumulator's buffer singled out.
-/
import proofs.«181658_j16363825397897_1_alg».proof.Proof.Gen.Kernel.Launch
import proofs.«181658_j16363825397897_1_alg».proof.Proof.Gen.Kernel.Skeleton
import proofs.«181658_j16363825397897_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The branch conditions -/

/-- The first conditional's condition (`j = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (`j = 15`). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where `j ≠ 15` the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where `j = 15` it is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S512x512 .f32 := (Memref.whole cc1_stg5_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S512x512 .f32 := Memref.whole cc1_scratch0
abbrev VS1_0 : View sig .tc .vmem S512x512 .f32 := scM1_0.view

/-! ## The region's invariant -/

/-- The scoped buffers that are neither a staging buffer of this region nor the accumulator: the first region's four
    staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant the launch hands the region, with the accumulator as a memref owned at some contents. -/
theorem PhiA1_in (c : Dev nD) :
    (Pipeline.ΦA spec1 c : sProp 𝕄) ⊢ iprop(rest1 c ∗ (∃ d, owns (c : Thread nD τ) scM1_0 fullShare d) ∗ (∃ r, prngReg c r)) := by
  unfold Pipeline.ΦA rest1; rw [scopedRest1_eq]; simp only [scM1_0, owns_whole]
  iintro ⟨⟨H0, H1, H2, H3, ⟨%f, HS⟩⟩, Hg⟩
  isplitl [H0 H1 H2 H3]
  · isplitl [H0]; · iexact H0
    isplitl [H1]; · iexact H1
    isplitl [H2]; · iexact H2
    iexact H3
  isplitl [HS]
  · iexists f; iexact HS
  iexact Hg

/-- And back: the accumulator's contents forgotten. -/
theorem PhiA1_out (c : Dev nD) :
    iprop(rest1 c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨H0, H1, H2, H3⟩, ⟨%d, HS⟩, Hg⟩
  isplitl [H0 H1 H2 H3 HS]
  · isplitl [H0]; · iexact H0
    isplitl [H1]; · iexact H1
    isplitl [H2]; · iexact H2
    isplitl [H3]; · iexact H3
    iexists d; iexact HS
  iexact Hg

end Cert.Kernel.Hand

end
-- ==== Proof.KB.GcRunA.lean ====
/-
  The graph-convolution kernel's body run whole in control case A (`j = 0`: the accumulator is zeroed, then the block product added), on any whole staging memrefs: the input blocks
  are kept, and the pieces the accumulator's buffer (and, when `j = 15`, the output's) ends with are found by running the
  body symbolically.
-/
import proofs.«181658_j16363825397897_1_alg».proof.Proof.KB.GcRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case A: the output's buffer (idle) is handed back untouched; the accumulator, found at anything, ends with the pieces `LS0`. -/
noncomputable def kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) :
    { LS0 : List (View.Piece (Elt F) S512x512 .f32) //
      ∀ (xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, fun xi5 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.GcRunB.lean ====
/-
  The graph-convolution kernel's body run whole in control case B (`0 < j < 15`: the block product is added to the accumulator), on any whole staging memrefs: the input blocks
  are kept, and the pieces the accumulator's buffer (and, when `j = 15`, the output's) ends with are found by running the
  body symbolically.
-/
import proofs.«181658_j16363825397897_1_alg».proof.Proof.KB.GcRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case B: the output's buffer (idle) is handed back untouched; the accumulator, found at `xs0`, ends with the pieces `LS0`. -/
noncomputable def kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) :
    { LS0 : List (View.Piece (Elt F) S512x512 .f32) //
      ∀ (xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, fun xi5 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.KB.GcRunC.lean ====
/-
  The graph-convolution kernel's body run whole in control case C (`j = 15`: the last block product is added, then the output block is stored), on any whole staging memrefs: the input blocks
  are kept, and the pieces the accumulator's buffer (and, when `j = 15`, the output's) ends with are found by running the
  body symbolically.
-/
import proofs.«181658_j16363825397897_1_alg».proof.Proof.KB.GcRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Case C: the output's buffer, found at anything, ends with the pieces `L5`; the accumulator, found at `xs0`, with `LS0`. -/
noncomputable def kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) :
    Σ' (L5 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.KB.Gc.lean ====
/-
  The graph-convolution kernel's proof data at the buffer contents `V` the region is entered from: what each control
  case leaves in the accumulator and in the output block, what the two hold after every grid point (by recursion on the
  point: the accumulator restarts where `j = 0` and otherwise continues from the point before), the region's invariant
  carrying the accumulator between points, and the body obligation.
-/
import proofs.«181658_j16363825397897_1_alg».proof.Proof.KB.GcRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- Where `j ≠ 15` nothing is stored into the output's buffer: a placeholder nothing consults. -/
def out1_idle : Vec F S512x512 .f32 := VO1_5.read (Elt F) (VO1_5.writes (Elt F) VO1_5.junk [])

/-- Case A's pieces cover the accumulator. -/
theorem scover1_A_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) (y : S512x512.Idx) :
    ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S512x512.size (by sl_kernel_rfl) y
/-- What case A leaves in the accumulator. -/
def sout1_A_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) : Vec F S512x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).1)

/-- Case B's pieces cover the accumulator. -/
theorem scover1_B_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S512x512.size (by sl_kernel_rfl) y
/-- What case B leaves in the accumulator. -/
def sout1_B_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).1)

/-- Case C's pieces cover the output block. -/
theorem cover1_C_5 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x512.size (by sl_kernel_rfl) y
/-- What case C leaves in the output block. -/
def out1_C_5 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
/-- Case C's pieces cover the accumulator. -/
theorem scover1_C_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x512.size (by sl_kernel_rfl) y
/-- What case C leaves in the accumulator. -/
def sout1_C_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## The accumulation over the grid -/

/-- What the output's staging buffer and the accumulator hold after the body at position `n` (output first): the case the
    closed forms select at `n`, run at the point's memrefs and input blocks, the accumulator continued from position `n - 1`
    unless `j = 0`. -/
def outsAt1 (c : Dev nD) : (n : ℕ) → n < cfg1.N → Vec F S512x512 .f32 × Vec F S512x512 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left in the accumulator. -/
theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left in the accumulator. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch hands the region; afterwards the other scoped buffers at
    anything, the accumulator at what the point before left, the generator register at some state. -/
def PhiS1 (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the graph-convolution kernel's pipeline on core `c`.  The two windows on the normaliser's array
    (its column-block rows and its row-block rows) each hold half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end

end Cert.Kernel.Hand

end
-- ==== Proof.KB.GcBody.lean ====
/-
  The graph-convolution kernel's body obligation.  At a grid point the body is handed the five input blocks (the
  adjacency block, the feature block, the weights, the two normaliser columns), the output's buffer and the accumulator.
  Where `j = 0` the accumulator is found at anything and restarted; where `0 < j` it is found at what the point before
  left.  Where `j ≠ 15` the output's buffer is handed back as it was found; where `j = 15` it ends at the clamped
  product.  In every case the accumulator ends at this point's contents, which the invariant carries to the next point.
  Before the first point and after the last the invariant is what the launch hands the region, the accumulator at anything.
-/
import proofs.«181658_j16363825397897_1_alg».proof.Proof.KB.Gc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point, by the point's control case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        refine BIBase.Entails.trans (Laws.sep_mono_left (PhiA1_in c)) ?_
        iintro ⟨⟨Hr, ⟨%ds0, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the graph-convolution kernel's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_out c)
  iintro ⟨Hr, HS0, Hg⟩
  isplitl [Hr]; · iexact Hr
  isplitl [HS0]; · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.Kernel.Hand

end
-- ==== Proof.KB.Run.lean ====
/-
  The run of the whole program: the two kernel regions as segments of @main over the thread state "every unscoped buffer
  at the boundary's contents, the generator register at some state, nothing owed", and the launch.  The buffer contents
  at the three boundaries are a fold from the launch memory: after the degree kernel its output array (the normaliser)
  holds what the pipeline's write-backs leave, after the graph-convolution kernel its output array does; everything else
  is as launched.  The second region reads the normaliser through two windows (its column-block rows and its row-block
  rows), so at its entry the array's ownership is split in two halves and at its exit rejoined.
-/
import proofs.«181658_j16363825397897_1_alg».proof.Proof.KB.Deg
import proofs.«181658_j16363825397897_1_alg».proof.Proof.KB.GcBody
import proofs.«181658_j16363825397897_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what the degree kernel's proof data take. -/
abbrev V0 : (c : Dev nD) → (b : Ref sig .tc) → Buf (Elt F) ((c : Thread nD τ).loc b) := fun c b => W0 m c b
/-- After the degree kernel: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the graph-convolution kernel's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the graph-convolution kernel: its output array at what the pipeline leaves, every other buffer as entered. -/
def W2 (c : Dev nD) : Valuation τ sig (Elt F) :=
  Function.update (W1 m c) (Proc.devRef .tc main_v1) ((dat1 (V1 m) c).arrAt 5 cfg1.N)
abbrev V2 : (c : Dev nD) → (b : Ref sig .tc) → Buf (Elt F) ((c : Thread nD τ).loc b) := fun c b => W2 m c b
theorem W2_out (c : Dev nD) : W2 m c (Proc.devRef .tc main_v1) = (dat1 (V1 m) c).arrAt 5 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The degree kernel's region -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The graph-convolution kernel's region -/

/-- The six windows' arrays one by one: the three arguments and the output outright, the normaliser's array in two halves. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg0) ↦{fullShare} G 0) ∗ (((c : Thread nD τ).loc main_arg1) ↦{fullShare} G 1)
          ∗ (((c : Thread nD τ).loc main_arg2) ↦{fullShare} G 2) ∗ (((c : Thread nD τ).loc main_v0) ↦{fullShare.left} G 3)
          ∗ (((c : Thread nD τ).loc main_v0) ↦{fullShare.right} G 4) ∗ (((c : Thread nD τ).loc main_v1) ↦{fullShare} G 5)) := by
  unfold Dat.arrays
  rw [bigSep_W1]
  rw [(arr_whole1 0).set_eq_univ, (arr_whole1 1).set_eq_univ, (arr_whole1 2).set_eq_univ, (arr_whole1 3).set_eq_univ, (arr_whole1 5).set_eq_univ]
  rfl

/-- The core's unscoped buffers one by one. -/
theorem held1_eq (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
          ∗ (((c : Thread nD τ).loc main_arg2) ↦{fullShare} W (Proc.devRef .tc main_arg2)) ∗ (((c : Thread nD τ).loc main_v0) ↦{fullShare} W (Proc.devRef .tc main_v0))
          ∗ (((c : Thread nD τ).loc main_v1) ↦{fullShare} W (Proc.devRef .tc main_v1))) := by
  rw [← Pipeline.unscopedBufs_held (Ix := Unit) (Name := ℕ) (U := UR sig nD τ) (Lvl := ℕ) c W]
  unfold unscopedBufs
  rw [Idealize.SL.BI.bigSep_eq_bigSepL_of_eq [main_arg0, main_arg1, main_arg2, main_v0, main_v1] (by decide) (by decide)]
  rfl

/-- At the graph-convolution kernel's exit each input's array holds what it held at entry, which the last valuation also has there. -/
theorem hG1 (c : Dev nD) (w : Fin cfg1.W) (hw : (cfg1.win w).isOut = false) (hne : Pipeline.arrRef spec1 w ≠ main_v1) :
    (dat1 (V1 m) c).arrAt w cfg1.N = W2 m c (Proc.devRef .tc (Pipeline.arrRef spec1 w)) :=
  ((dat1 (V1 m) c).arrAt_in w hw _).trans ((A_eq1 (V1 m) c w).trans (W2_of_ne m c _ hne).symm)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := (BI.emp : sProp 𝕄)
  hentry c := by
    rw [Pipeline.ownSems0_none, show pdats m 1 c = dat1 (V1 m) c from rfl, held1_eq, arrays1_eq]
    have hsp : ((((c : Thread nD τ).loc main_v0) ↦{fullShare} W1 m c (Proc.devRef .tc main_v0)) : sProp 𝕄)
        ⊢ iprop((((c : Thread nD τ).loc main_v0) ↦{fullShare.left} W1 m c (Proc.devRef .tc main_v0)) ∗ (((c : Thread nD τ).loc main_v0) ↦{fullShare.right} W1 m c (Proc.devRef .tc main_v0))) :=
      (pointsTo_share (PosShare.mem_left_op_right fullShare)).1
    iintro ⟨⟨⟨Ha0, Ha1, Ha2, Hv0, Hv1⟩, Hp, HO⟩, -, -⟩
    ihave Hsp := hsp $$ Hv0
    icases Hsp with ⟨HvL, HvR⟩
    imodintro
    isplitl [Ha0 Ha1 Ha2 HvL HvR Hv1]
    · isplitl [Ha0]; · iexact Ha0
      isplitl [Ha1]; · iexact Ha1
      isplitl [Ha2]; · iexact Ha2
      isplitl [HvL]; · iexact HvL
      isplitl [HvR]; · iexact HvR
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    refine (hout1 (V1 m) c).trans ?_
    unfold Pipeline.ΦA
    iintro ⟨Hr, Hp⟩
    isplitl [Hp]; · iexact Hp
    isplitr; · iempintro
    iexact Hr
  hexit c := by
    have hjoin : iprop((((c : Thread nD τ).loc main_v0) ↦{fullShare.left} W2 m c (Proc.devRef .tc main_v0)) ∗ (((c : Thread nD τ).loc main_v0) ↦{fullShare.right} W2 m c (Proc.devRef .tc main_v0)))
        ⊢ ((((c : Thread nD τ).loc main_v0) ↦{fullShare} W2 m c (Proc.devRef .tc main_v0)) : sProp 𝕄) :=
      (pointsTo_share (PosShare.mem_left_op_right fullShare)).2
    show _ ⊢ |={Set.univ}=> iprop((StableHlo.held (c : Thread nD τ) (Pipeline.ucRefs τ sig) (W2 m c) ∗ ∃ r, prngReg c r) ∗ ∃ W, owes (c : Thread nD τ) (0 : CellTallies nD τ sig Unit) W)
    have e0 : (dat1 (V1 m) c).arrAt 0 (Pipeline.pin (pcfgs (F := F)) adm 1).N = W2 m c (Proc.devRef .tc main_arg0) := hG1 m c 0 rfl (by decide)
    have e1 : (dat1 (V1 m) c).arrAt 1 (Pipeline.pin (pcfgs (F := F)) adm 1).N = W2 m c (Proc.devRef .tc main_arg1) := hG1 m c 1 rfl (by decide)
    have e2 : (dat1 (V1 m) c).arrAt 2 (Pipeline.pin (pcfgs (F := F)) adm 1).N = W2 m c (Proc.devRef .tc main_arg2) := hG1 m c 2 rfl (by decide)
    have e3 : (dat1 (V1 m) c).arrAt 3 (Pipeline.pin (pcfgs (F := F)) adm 1).N = W2 m c (Proc.devRef .tc main_v0) := hG1 m c 3 rfl (by decide)
    have e4 : (dat1 (V1 m) c).arrAt 4 (Pipeline.pin (pcfgs (F := F)) adm 1).N = W2 m c (Proc.devRef .tc main_v0) := hG1 m c 4 rfl (by decide)
    have e5 : (dat1 (V1 m) c).arrAt 5 (Pipeline.pin (pcfgs (F := F)) adm 1).N = W2 m c (Proc.devRef .tc main_v1) := (W2_out m c).symm
    rw [show pdats m 1 c = dat1 (V1 m) c from rfl, arrays1_eq, held1_eq, e0, e1, e2, e3, e4, e5]
    iintro ⟨⟨Ha0, Ha1, Ha2, HvL, HvR, Hv1⟩, HO, HY, -⟩
    ihave Hv0 := hjoin $$ [HvL HvR]
    · isplitl [HvL]; · iexact HvL
      iexact HvR
    imodintro
    isplitl [Ha0 Ha1 Ha2 Hv0 Hv1 HY]
    · isplitl [Ha0 Ha1 Ha2 Hv0 Hv1]
      · isplitl [Ha0]; · iexact Ha0
        isplitl [Ha1]; · iexact Ha1
        isplitl [Ha2]; · iexact Ha2
        isplitl [Hv0]; · iexact Hv0
        iexact Hv1
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The last boundary's contents read back -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  W1_of_ne m c main_arg1 (by decide)
theorem W1_main_arg2 (c : Dev nD) : W1 m c (Proc.devRef .tc main_arg2) = m ((c : Thread nD τ).loc main_arg2) :=
  W1_of_ne m c main_arg2 (by decide)
/-- The normaliser's array when the second region is entered: what the degree kernel's write-backs leave. -/
theorem W1_main_v0 (c : Dev nD) : W1 m c (Proc.devRef .tc main_v0) = (dat0 (V0 m) c).arrAt 1 cfg0.N := W1_arr m c 1
theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  (W2_of_ne m c main_arg1 (by decide)).trans (W1_main_arg1 m c)
theorem W2_main_arg2 (c : Dev nD) : W2 m c (Proc.devRef .tc main_arg2) = m ((c : Thread nD τ).loc main_arg2) :=
  (W2_of_ne m c main_arg2 (by decide)).trans (W1_main_arg2 m c)

/-- THE FRAME: the program runs and its three argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN WITH THE RESULT NAMED: besides the frame, the output array ends at what the second pipeline's write-backs leave. -/
theorem run_value : θ_run defs (onTc (τ := τ) (main (F := F))) ⟨m, fun _ => 0, ρ⟩ (fun r => ∀ c : Dev nD,
      r.2.mem ((c.tc : Thread nD τ).loc main_v1) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.Kernel.Hand

end
-- ==== Proof.KI.Deg.lean ====
/-
  The degree kernel (the program's first kernel region) at any float instance, stated at the buffer contents `V` the
  region is entered from.  Each of the 32 grid points loads a block of 256 rows of the adjacency matrix, sums every row,
  adds one and stores the reciprocal square root into the matching 256 × 1 block of the normaliser; the output buffer is
  read once before it is overwritten, and what was read is not used.
-/
import proofs.«181658_j16363825397897_1_alg».proof.Proof.Gen.KernelIdeal.Launch
import proofs.«181658_j16363825397897_1_alg».proof.Proof.Gen.KernelIdeal.Skeleton
import proofs.«181658_j16363825397897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 256 × 8192 block and the whole 256 × 1 block as rectangles. -/
abbrev rIn0 : Rect S256x8192 := Rect.unit (s := S256x8192) ![0, 0] S256x8192.size inb_S256x8192_S256x8192_0_0
abbrev rOut0 : Rect S256x1 := Rect.unit (s := S256x1) ![0, 0] S256x1.size inb_S256x1_S256x1_0_0

/-- What the body leaves in the normaliser's staging buffer: its one store, of the reciprocal square roots of the
    block's row sums plus one. -/
def out0_1 (x0 : Vec F S256x8192 .f32) : Vec F S256x1 .f32 :=
  View.canon [⟨rOut0, k0_pay1 (View.ld x0 rIn0)⟩]

/-- The store covers the buffer. -/
theorem cover0_1 (p0 : Vec F S256x1 .f32) (y : S256x1.Idx) :
    ∃ pc ∈ ([⟨rOut0, p0⟩] : List (View.Piece (Elt F) S256x1 .f32)), y ∈ pc.1.set :=
  View.cover_of_tiled [⟨rOut0, p0⟩] S256x1.size (by rfl) y

set_option maxHeartbeats 1000000 in
/-- The body on whole staging memrefs: the input's kept, the output's at `out0_1` of the input's. -/
theorem sound_kernel0 (c : Dev nD) (i : grid0.Coords) (E : Set ℕ) (arg1 : Memref sig .tc .vmem S256x8192 .f32) (harg1 : arg1.IsWhole) (arg2 : Memref sig .tc .vmem S256x1 .f32) (harg2 : arg2.IsWhole)
    (x0 : Vec F S256x8192 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__deg_kernel i arg1 harg1 arg2 harg2) K := by
  simp only [cc0__deg_kernel_eq_skeleton]; unfold cc0__deg_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of the degree kernel's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c _ Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the degree kernel's pipeline, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.GcRuns.lean ====
/-
  The graph-convolution kernel (the program's second kernel region, a 16 × 16 grid: row block `i`, column block `j`):
  what its three control cases share.  The body zeroes its accumulator when `j = 0`, always adds the block product
  `(A_blk + [i = j]·I) · (H_blk ∘ d_j)` to it, and when `j = 15` stores `max ((acc ∘ d_i) · W, 0)` into the output block.
  Case A is `j = 0`, case C is `j = 15`, case B the points between.  Here: the two branch conditions in closed form
  over the grid, where the output window is idle, the staging memrefs at a point, and the region's invariant with the
  accumulator's buffer singled out.
-/
import proofs.«181658_j16363825397897_1_alg».proof.Proof.Gen.KernelIdeal.Launch
import proofs.«181658_j16363825397897_1_alg».proof.Proof.Gen.KernelIdeal.Skeleton
import proofs.«181658_j16363825397897_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The branch conditions -/

/-- The first conditional's condition (`j = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition (`j = 15`). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where `j ≠ 15` the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where `j = 15` it is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S512x512 .f32 := (Memref.whole cc1_stg5_0 : Memref sig .tc .vmem S512x512 .f32).view
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x512 .f32 := win1_5.stage (cfg1.slots t 5)
abbrev hs1_5 (t : Fin cfg1.N) : (ms1_5 t).IsWhole := hstage1_5 ((cfg1.slots t 5).cast nbuf1_5)
/-- The accumulator: a whole scoped buffer of the kernel's own. -/
abbrev scM1_0 : Memref sig .tc .vmem S512x512 .f32 := Memref.whole cc1_scratch0
abbrev VS1_0 : View sig .tc .vmem S512x512 .f32 := scM1_0.view

/-! ## The region's invariant -/

/-- The scoped buffers that are neither a staging buffer of this region nor the accumulator: the first region's four
    staging buffers, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant the launch hands the region, with the accumulator as a memref owned at some contents. -/
theorem PhiA1_in (c : Dev nD) :
    (Pipeline.ΦA spec1 c : sProp 𝕄) ⊢ iprop(rest1 c ∗ (∃ d, owns (c : Thread nD τ) scM1_0 fullShare d) ∗ (∃ r, prngReg c r)) := by
  unfold Pipeline.ΦA rest1; rw [scopedRest1_eq]; simp only [scM1_0, owns_whole]
  iintro ⟨⟨H0, H1, H2, H3, ⟨%f, HS⟩⟩, Hg⟩
  isplitl [H0 H1 H2 H3]
  · isplitl [H0]; · iexact H0
    isplitl [H1]; · iexact H1
    isplitl [H2]; · iexact H2
    iexact H3
  isplitl [HS]
  · iexists f; iexact HS
  iexact Hg

/-- And back: the accumulator's contents forgotten. -/
theorem PhiA1_out (c : Dev nD) :
    iprop(rest1 c ∗ (∃ d, owns (c : Thread nD τ) scM1_0 fullShare d) ∗ (∃ r, prngReg c r)) ⊢ (Pipeline.ΦA spec1 c : sProp 𝕄) := by
  unfold Pipeline.ΦA rest1; rw [scopedRest1_eq]; simp only [scM1_0, owns_whole]
  iintro ⟨⟨H0, H1, H2, H3⟩, ⟨%d, HS⟩, Hg⟩
  isplitl [H0 H1 H2 H3 HS]
  · isplitl [H0]; · iexact H0
    isplitl [H1]; · iexact H1
    isplitl [H2]; · iexact H2
    isplitl [H3]; · iexact H3
    iexists d; iexact HS
  iexact Hg

end Cert.KernelIdeal.Hand

end
-- ==== Proof.KI.GcRunA.lean ====
/-
  The graph-convolution kernel's body run whole in control case A (`j = 0`: the accumulator is zeroed, then the block product added), on any whole staging memrefs: the input blocks
  are kept, and the pieces the accumulator's buffer (and, when `j = 15`, the output's) ends with are found by running the
  body symbolically.
-/
import proofs.«181658_j16363825397897_1_alg».proof.Proof.KI.GcRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case A: the output's buffer (idle) is handed back untouched; the accumulator, found at anything, ends with the pieces `LS0`. -/
noncomputable def kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) :
    { LS0 : List (View.Piece (Elt F) S512x512 .f32) //
      ∀ (xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, fun xi5 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.GcRunB.lean ====
/-
  The graph-convolution kernel's body run whole in control case B (`0 < j < 15`: the block product is added to the accumulator), on any whole staging memrefs: the input blocks
  are kept, and the pieces the accumulator's buffer (and, when `j = 15`, the output's) ends with are found by running the
  body symbolically.
-/
import proofs.«181658_j16363825397897_1_alg».proof.Proof.KI.GcRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case B: the output's buffer (idle) is handed back untouched; the accumulator, found at `xs0`, ends with the pieces `LS0`. -/
noncomputable def kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) :
    { LS0 : List (View.Piece (Elt F) S512x512 .f32) //
      ∀ (xi5 : Vec F S512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, fun xi5 E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.GcRunC.lean ====
/-
  The graph-convolution kernel's body run whole in control case C (`j = 15`: the last block product is added, then the output block is stored), on any whole staging memrefs: the input blocks
  are kept, and the pieces the accumulator's buffer (and, when `j = 15`, the output's) ends with are found by running the
  body symbolically.
-/
import proofs.«181658_j16363825397897_1_alg».proof.Proof.KI.GcRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- Case C: the output's buffer, found at anything, ends with the pieces `L5`; the accumulator, found at `xs0`, with `LS0`. -/
noncomputable def kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) :
    Σ' (L5 : List (View.Piece (Elt F) S512x512 .f32)), { LS0 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1__gc_kernel i arg2 harg2 arg3 harg3 arg4 harg4 arg5 harg5 arg6 harg6 arg7 harg7 arg8 harg8) K } := by
  refine ⟨?_, ?_, fun E K => ?run⟩
  case run =>
    simp only [cc1__gc_kernel_eq_skeleton]; unfold cc1__gc_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Gc.lean ====
/-
  The graph-convolution kernel's proof data at the buffer contents `V` the region is entered from: what each control
  case leaves in the accumulator and in the output block, what the two hold after every grid point (by recursion on the
  point: the accumulator restarts where `j = 0` and otherwise continues from the point before), the region's invariant
  carrying the accumulator between points, and the body obligation.
-/
import proofs.«181658_j16363825397897_1_alg».proof.Proof.KI.GcRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    over `V` whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## What each case leaves -/

/-- Where `j ≠ 15` nothing is stored into the output's buffer: a placeholder nothing consults. -/
def out1_idle : Vec F S512x512 .f32 := VO1_5.read (Elt F) (VO1_5.writes (Elt F) VO1_5.junk [])

/-- Case A's pieces cover the accumulator. -/
theorem scover1_A_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) (y : S512x512.Idx) :
    ∃ pc ∈ (kernelRun1_A c i arg2 harg2 arg3 harg3 arg4 harg4 arg5 harg5 arg6 harg6 arg7 harg7 arg8 harg8 hc0 hc1 x0 x1 x2 x3 x4).1, y ∈ pc.1.set :=
  View.cover_of_tiledL (kernelRun1_A c i arg2 harg2 arg3 harg3 arg4 harg4 arg5 harg5 arg6 harg6 arg7 harg7 arg8 harg8 hc0 hc1 x0 x1 x2 x3 x4).1 S512x512.size (by sl_kernel_rfl) y
/-- What case A leaves in the accumulator. -/
def sout1_A_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) : Vec F S512x512 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).1)

/-- Case B's pieces cover the accumulator. -/
theorem scover1_B_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_B c i arg2 harg2 arg3 harg3 arg4 harg4 arg5 harg5 arg6 harg6 arg7 harg7 arg8 harg8 hc0 hc1 x0 x1 x2 x3 x4 xs0).1, y ∈ pc.1.set :=
  View.cover_of_tiledL (kernelRun1_B c i arg2 harg2 arg3 harg3 arg4 harg4 arg5 harg5 arg6 harg6 arg7 harg7 arg8 harg8 hc0 hc1 x0 x1 x2 x3 x4 xs0).1 S512x512.size (by sl_kernel_rfl) y
/-- What case B leaves in the accumulator. -/
def sout1_B_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).1)

/-- Case C's pieces cover the output block. -/
theorem cover1_C_5 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x512.size (by sl_kernel_rfl) y
/-- What case C leaves in the output block. -/
def out1_C_5 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)
/-- Case C's pieces cover the accumulator. -/
theorem scover1_C_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) (y : S512x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x512.size (by sl_kernel_rfl) y
/-- What case C leaves in the accumulator. -/
def sout1_C_0 (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) : Vec F S512x512 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

section
variable (V : (c : Dev nD) → (b : Ref sig .tc) → Buf (Elt F) ((c : Thread nD τ).loc b))

/-! ## The accumulation over the grid -/

/-- What the output's staging buffer and the accumulator hold after the body at position `n` (output first): the case the
    closed forms select at `n`, run at the point's memrefs and input blocks, the accumulator continued from position `n - 1`
    unless `j = 0`. -/
def outsAt1 (c : Dev nD) : (n : ℕ) → n < cfg1.N → Vec F S512x512 .f32 × Vec F S512x512 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 16 = 15 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A. -/
theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B: over what the point before left in the accumulator. -/
theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: over what the point before left in the accumulator. -/
theorem outsAt1_C (c : Dev nD) (t : Fin cfg1.N) (h0 : ¬t.val % 16 = 0) (h1 : t.val % 16 = 15) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: before the first point what the launch hands the region; afterwards the other scoped buffers at
    anything, the accumulator at what the point before left, the generator register at some state. -/
def PhiS1 (c : Dev nD) : (n : ℕ) → n ≤ cfg1.N → sProp 𝕄
  | 0, _ => Pipeline.ΦA spec1 c
  | n + 1, hn => iprop(rest1 c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(rest1 c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(rest1 c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the graph-convolution kernel's pipeline on core `c`.  The two windows on the normaliser's array
    (its column-block rows and its row-block rows) each hold half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q w := match w with
    | ⟨0, _⟩ => fullShare
    | ⟨1, _⟩ => fullShare
    | ⟨2, _⟩ => fullShare
    | ⟨3, _⟩ => fullShare.left
    | ⟨4, _⟩ => fullShare.right
    | ⟨5, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

end

end Cert.KernelIdeal.Hand

end
-- ==== Proof.KI.GcBody.lean ====
/-
  The graph-convolution kernel's body obligation.  At a grid point the body is handed the five input blocks (the
  adjacency block, the feature block, the weights, the two normaliser columns), the output's buffer and the accumulator.
  Where `j = 0` the accumulator is found at anything and restarted; where `0 < j` it is found at what the point before
  left.  Where `j ≠ 15` the output's buffer is handed back as it was found; where `j = 15` it ends at the clamped
  product.  In every case the accumulator ends at this point's contents, which the invariant carries to the next point.
  Before the first point and after the last the invariant is what the launch hands the region, the accumulator at anything.
-/
import proofs.«181658_j16363825397897_1_alg».proof.Proof.KI.Gc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, what the core owes, and each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- And what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point, by the point's control case. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 16 = 0
  · by_cases h1 : t.val % 16 = 15
    · exfalso; omega
    · rw [Dat.leavesExact_idle (dat1 V c) 5 t (idleAt1_5 t (fun h => h1 ((hcond1_1 t).mp h))) (noFlush1_5 t (fun h => h1 ((hcond1_1 t).mp h)))]
      rw [outsAt1_A V c t h0 h1]
      unfold sout1_A_0; (try dsimp only)
      by_cases hz : t.val = 0
      · rw [PhiS1_castSucc V c t, PhiS1_zero V c _ _ hz]
        refine BIBase.Entails.trans (Laws.sep_mono_left (PhiA1_in c)) ?_
        iintro ⟨⟨Hr, ⟨%ds0, HS0⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    · rw [show (dat1 V c).leavesExact 5 t = owns (c : Thread nD τ) (ms1_5 t) fullShare ((dat1 V c).after 5 t) from by
        unfold Dat.leavesExact; rw [liveAt1_5 t ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨Hr, HS0, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [Hr HS0 Hg]
        · isplitl [Hr]; · iexact Hr
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The body obligation of the graph-convolution kernel's pipeline, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives it back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine BIBase.Entails.trans ?_ (PhiA1_out c)
  iintro ⟨Hr, HS0, Hg⟩
  isplitl [Hr]; · iexact Hr
  isplitl [HS0]; · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Hand

end
-- ==== Proof.KI.Run.lean ====
/-
  The run of the whole program: the two kernel regions as segments of @main over the thread state "every unscoped buffer
  at the boundary's contents, the generator register at some state, nothing owed", and the launch.  The buffer contents
  at the three boundaries are a fold from the launch memory: after the degree kernel its output array (the normaliser)
  holds what the pipeline's write-backs leave, after the graph-convolution kernel its output array does; everything else
  is as launched.  The second region reads the normaliser through two windows (its column-block rows and its row-block
  rows), so at its entry the array's ownership is split in two halves and at its exit rejoined.
-/
import proofs.«181658_j16363825397897_1_alg».proof.Proof.KI.Deg
import proofs.«181658_j16363825397897_1_alg».proof.Proof.KI.GcBody
import proofs.«181658_j16363825397897_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- The same read at the TensorCore's references: what the degree kernel's proof data take. -/
abbrev V0 : (c : Dev nD) → (b : Ref sig .tc) → Buf (Elt F) ((c : Thread nD τ).loc b) := fun c b => W0 m c b
/-- After the degree kernel: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references: what the graph-convolution kernel's proof data take. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the graph-convolution kernel: its output array at what the pipeline leaves, every other buffer as entered. -/
def W2 (c : Dev nD) : Valuation τ sig (Elt F) :=
  Function.update (W1 m c) (Proc.devRef .tc main_v1) ((dat1 (V1 m) c).arrAt 5 cfg1.N)
abbrev V2 : (c : Dev nD) → (b : Ref sig .tc) → Buf (Elt F) ((c : Thread nD τ).loc b) := fun c b => W2 m c b
theorem W2_out (c : Dev nD) : W2 m c (Proc.devRef .tc main_v1) = (dat1 (V1 m) c).arrAt 5 cfg1.N := by
  unfold W2; exact Function.update_self ..
theorem W2_of_ne (c : Dev nD) (b : Ref sig .tc) (hb : b ≠ main_v1) :
    W2 m c (Proc.devRef .tc b) = W1 m c (Proc.devRef .tc b) := by
  unfold W2; exact Function.update_of_ne (StableHlo.devRef_ne_of_ne hb) ..

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W2 m c) ∗ ∃ r, prngReg c r)

/-! ## The degree kernel's region -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The graph-convolution kernel's region -/

/-- The six windows' arrays one by one: the three arguments and the output outright, the normaliser's array in two halves. -/
theorem arrays1_eq (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_arg0) ↦{fullShare} G 0) ∗ (((c : Thread nD τ).loc main_arg1) ↦{fullShare} G 1)
          ∗ (((c : Thread nD τ).loc main_arg2) ↦{fullShare} G 2) ∗ (((c : Thread nD τ).loc main_v0) ↦{fullShare.left} G 3)
          ∗ (((c : Thread nD τ).loc main_v0) ↦{fullShare.right} G 4) ∗ (((c : Thread nD τ).loc main_v1) ↦{fullShare} G 5)) := by
  unfold Dat.arrays
  rw [bigSep_W1]
  rw [(arr_whole1 0).set_eq_univ, (arr_whole1 1).set_eq_univ, (arr_whole1 2).set_eq_univ, (arr_whole1 3).set_eq_univ, (arr_whole1 5).set_eq_univ]
  rfl

/-- The core's unscoped buffers one by one. -/
theorem held1_eq (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
          ∗ (((c : Thread nD τ).loc main_arg2) ↦{fullShare} W (Proc.devRef .tc main_arg2)) ∗ (((c : Thread nD τ).loc main_v0) ↦{fullShare} W (Proc.devRef .tc main_v0))
          ∗ (((c : Thread nD τ).loc main_v1) ↦{fullShare} W (Proc.devRef .tc main_v1))) := by
  rw [← Pipeline.unscopedBufs_held (Ix := Unit) (Name := ℕ) (U := UR sig nD τ) (Lvl := ℕ) c W]
  unfold unscopedBufs
  rw [Idealize.SL.BI.bigSep_eq_bigSepL_of_eq [main_arg0, main_arg1, main_arg2, main_v0, main_v1] (by decide) (by decide)]
  rfl

/-- At the graph-convolution kernel's exit each input's array holds what it held at entry, which the last valuation also has there. -/
theorem hG1 (c : Dev nD) (w : Fin cfg1.W) (hw : (cfg1.win w).isOut = false) (hne : Pipeline.arrRef spec1 w ≠ main_v1) :
    (dat1 (V1 m) c).arrAt w cfg1.N = W2 m c (Proc.devRef .tc (Pipeline.arrRef spec1 w)) :=
  ((dat1 (V1 m) c).arrAt_in w hw _).trans ((A_eq1 (V1 m) c w).trans (W2_of_ne m c _ hne).symm)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := (BI.emp : sProp 𝕄)
  hentry c := by
    rw [Pipeline.ownSems0_none, show pdats m 1 c = dat1 (V1 m) c from rfl, held1_eq, arrays1_eq]
    have hsp : ((((c : Thread nD τ).loc main_v0) ↦{fullShare} W1 m c (Proc.devRef .tc main_v0)) : sProp 𝕄)
        ⊢ iprop((((c : Thread nD τ).loc main_v0) ↦{fullShare.left} W1 m c (Proc.devRef .tc main_v0)) ∗ (((c : Thread nD τ).loc main_v0) ↦{fullShare.right} W1 m c (Proc.devRef .tc main_v0))) :=
      (pointsTo_share (PosShare.mem_left_op_right fullShare)).1
    iintro ⟨⟨⟨Ha0, Ha1, Ha2, Hv0, Hv1⟩, Hp, HO⟩, -, -⟩
    ihave Hsp := hsp $$ Hv0
    icases Hsp with ⟨HvL, HvR⟩
    imodintro
    isplitl [Ha0 Ha1 Ha2 HvL HvR Hv1]
    · isplitl [Ha0]; · iexact Ha0
      isplitl [Ha1]; · iexact Ha1
      isplitl [Ha2]; · iexact Ha2
      isplitl [HvL]; · iexact HvL
      isplitl [HvR]; · iexact HvR
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    rw [show (pdats m 1 c).Φ 0 = (dat1 (V1 m) c).Φ 0 from rfl]
    iintro ⟨Hp, -, Hr⟩
    iapply (hin1 (V1 m) c)
    unfold Pipeline.ΦA
    isplitl [Hr]; · iexact Hr
    iexact Hp
  hout c := by
    rw [Pipeline.ownSems0_none, show (pdats m 1 c).Φ (Fin.last _) = (dat1 (V1 m) c).Φ (Fin.last cfg1.N) from rfl]
    refine (hout1 (V1 m) c).trans ?_
    unfold Pipeline.ΦA
    iintro ⟨Hr, Hp⟩
    isplitl [Hp]; · iexact Hp
    isplitr; · iempintro
    iexact Hr
  hexit c := by
    have hjoin : iprop((((c : Thread nD τ).loc main_v0) ↦{fullShare.left} W2 m c (Proc.devRef .tc main_v0)) ∗ (((c : Thread nD τ).loc main_v0) ↦{fullShare.right} W2 m c (Proc.devRef .tc main_v0)))
        ⊢ ((((c : Thread nD τ).loc main_v0) ↦{fullShare} W2 m c (Proc.devRef .tc main_v0)) : sProp 𝕄) :=
      (pointsTo_share (PosShare.mem_left_op_right fullShare)).2
    show _ ⊢ |={Set.univ}=> iprop((StableHlo.held (c : Thread nD τ) (Pipeline.ucRefs τ sig) (W2 m c) ∗ ∃ r, prngReg c r) ∗ ∃ W, owes (c : Thread nD τ) (0 : CellTallies nD τ sig Unit) W)
    have e0 : (dat1 (V1 m) c).arrAt 0 (Pipeline.pin (pcfgs (F := F)) adm 1).N = W2 m c (Proc.devRef .tc main_arg0) := hG1 m c 0 rfl (by decide)
    have e1 : (dat1 (V1 m) c).arrAt 1 (Pipeline.pin (pcfgs (F := F)) adm 1).N = W2 m c (Proc.devRef .tc main_arg1) := hG1 m c 1 rfl (by decide)
    have e2 : (dat1 (V1 m) c).arrAt 2 (Pipeline.pin (pcfgs (F := F)) adm 1).N = W2 m c (Proc.devRef .tc main_arg2) := hG1 m c 2 rfl (by decide)
    have e3 : (dat1 (V1 m) c).arrAt 3 (Pipeline.pin (pcfgs (F := F)) adm 1).N = W2 m c (Proc.devRef .tc main_v0) := hG1 m c 3 rfl (by decide)
    have e4 : (dat1 (V1 m) c).arrAt 4 (Pipeline.pin (pcfgs (F := F)) adm 1).N = W2 m c (Proc.devRef .tc main_v0) := hG1 m c 4 rfl (by decide)
    have e5 : (dat1 (V1 m) c).arrAt 5 (Pipeline.pin (pcfgs (F := F)) adm 1).N = W2 m c (Proc.devRef .tc main_v1) := (W2_out m c).symm
    rw [show pdats m 1 c = dat1 (V1 m) c from rfl, arrays1_eq, held1_eq, e0, e1, e2, e3, e4, e5]
    iintro ⟨⟨Ha0, Ha1, Ha2, HvL, HvR, Hv1⟩, HO, HY, -⟩
    ihave Hv0 := hjoin $$ [HvL HvR]
    · isplitl [HvL]; · iexact HvL
      iexact HvR
    imodintro
    isplitl [Ha0 Ha1 Ha2 Hv0 Hv1 HY]
    · isplitl [Ha0 Ha1 Ha2 Hv0 Hv1]
      · isplitl [Ha0]; · iexact Ha0
        isplitl [Ha1]; · iexact Ha1
        isplitl [Ha2]; · iexact Ha2
        isplitl [Hv0]; · iexact Hv0
        iexact Hv1
      iexact HY
    unfold Pipeline.Dat.owesAt Pipeline.owesWithin
    icases HO with ⟨%W, -, HO⟩; iexists W; iexact HO

/-! ## @main as segments, and the launch -/

/-- @main's two segments in order. -/
abbrev segs : List (Pipeline.Seg (pcfgs (F := F)) adm (pdats m) () defs₀ 𝒱₀ L lv) :=
  [ .region (reg0 m), .region (reg1 m) ]
/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The last boundary's contents read back -/

theorem W1_main_arg0 (c : Dev nD) : W1 m c (Proc.devRef .tc main_arg0) = m ((c : Thread nD τ).loc main_arg0) :=
  (W1_arr m c 0).trans (((dat0 (V0 m) c).arrAt_in 0 rfl _).trans (A_eq0 (V0 m) c 0))
theorem W1_main_arg1 (c : Dev nD) : W1 m c (Proc.devRef .tc main_arg1) = m ((c : Thread nD τ).loc main_arg1) :=
  W1_of_ne m c main_arg1 (by decide)
theorem W1_main_arg2 (c : Dev nD) : W1 m c (Proc.devRef .tc main_arg2) = m ((c : Thread nD τ).loc main_arg2) :=
  W1_of_ne m c main_arg2 (by decide)
/-- The normaliser's array when the second region is entered: what the degree kernel's write-backs leave. -/
theorem W1_main_v0 (c : Dev nD) : W1 m c (Proc.devRef .tc main_v0) = (dat0 (V0 m) c).arrAt 1 cfg0.N := W1_arr m c 1
theorem W2_main_arg0 (c : Dev nD) : W2 m c (Proc.devRef .tc main_arg0) = m ((c : Thread nD τ).loc main_arg0) :=
  (W2_of_ne m c main_arg0 (by decide)).trans (W1_main_arg0 m c)
theorem W2_main_arg1 (c : Dev nD) : W2 m c (Proc.devRef .tc main_arg1) = m ((c : Thread nD τ).loc main_arg1) :=
  (W2_of_ne m c main_arg1 (by decide)).trans (W1_main_arg1 m c)
theorem W2_main_arg2 (c : Dev nD) : W2 m c (Proc.devRef .tc main_arg2) = m ((c : Thread nD τ).loc main_arg2) :=
  (W2_of_ne m c main_arg2 (by decide)).trans (W1_main_arg2 m c)

/-- THE FRAME: the program runs and its three argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

/-- THE RUN WITH THE RESULT NAMED: besides the frame, the output array ends at what the second pipeline's write-backs leave. -/
theorem run_value : θ_run defs (onTc (τ := τ) (main (F := F))) ⟨m, fun _ => 0, ρ⟩ (fun r => ∀ c : Dev nD,
      r.2.mem ((c.tc : Thread nD τ).loc main_v1) = (dat1 (V1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_out m c),
     (h c _ (mem_uc main_arg0 (by decide))).trans (W2_main_arg0 m c),
     (h c _ (mem_uc main_arg1 (by decide))).trans (W2_main_arg1 m c),
     (h c _ (mem_uc main_arg2 (by decide))).trans (W2_main_arg2 m c)⟩) (run_all m ρ)

end Cert.KernelIdeal.Hand

end
-- ==== Proof.KI.Pay.lean ====
/-
  The values the kernel's stores write, read at one index, at the ideal instance: every float is an extended
  real, every operation its textbook one, a change of format the identity.

  The degree kernel writes, at row `p`, the reciprocal square root of the row's sum plus one.  The
  convolution kernel zeroes its accumulator; adds to it, at `(p, q)`, the sum over `k` of
  `(A p k + [i = j][p = k]) · (H k q · d k)` for the block `(i, j)` it is at; and writes, at the last
  column block, `max (∑ k, (acc p k · d p) · W k q) 0`.
-/
import proofs.«181658_j16363825397897_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.Hand

open Idealize.ShloMosaic Idealize.ShloMosaic.ValueIdx Cert.KernelIdeal Cert.KernelIdeal.Gen
open scoped BigOperators

/-! ## Layout operations at an index -/

/-- A vector of `a` entries cast to a column `[a, 1]` reads, at `(i, u)`, the entry `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its rows to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero and the one -/

/-- The scalar constant of pattern zero is the extended real zero. -/
theorem scalar_zero : (Scalar.ofBits .f32 0x00000000#32 : Ideal .f32) = 0 := Ideal.ofBits_zero_f32

/-- The scalar constant of pattern `0x3F800000` is the extended real one. -/
theorem scalar_one : (Scalar.ofBits .f32 0x3F800000#32 : Ideal .f32) = 1 := Ideal.ofBits_one_f32

/-! ## The block product at an index -/

/-- The left operand's row is the output's row. -/
theorem lhs_dot_0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl

/-- The left operand's column is the contraction index. -/
theorem lhs_dot_1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q

/-- The right operand's row is the contraction index. -/
theorem rhs_dot_0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q

/-- The right operand's column is the output's column. -/
theorem rhs_dot_1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product of two 512 by 512 blocks into a zero accumulator, at `(p, q)`: the sum over `k` of
    `lhs (p, k) · rhs (k, q)`. -/
theorem matmul_zero_apply {φ₁ φ₂ : FTy} (lhs : FVec Ideal S512x512 φ₁) (rhs : FVec Ideal S512x512 φ₂) (p q : Fin 512) :
    matmul dot_S512x512_S512x512_S512x512_1_0_0_1_n_n none lhs rhs (constant S512x512 .f32 0x00000000#32) (ix2 p q)
      = ∑ k : Fin 512, lhs (ix2 p k) * rhs (ix2 k q) := by
  refine (Ideal.matmul_constant_zero_apply dot_S512x512_S512x512_S512x512_1_0_0_1_n_n none lhs rhs (ix2 p q)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_dot_0 _ _
    | ⟨1, _⟩ => exact (lhs_dot_1 _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_dot_0 _ _).trans hk
    | ⟨1, _⟩ => exact rhs_dot_1 _ _)
  rw [el, er]

/-! ## The degree kernel's store -/

/-- The lane sum of a 256 by 8192 block from zero, at row `p`: the sum of the row's entries. -/
theorem rowSum_apply (x0 : FVec Ideal S256x8192 .f32) (hφ : FKind.Formats .f32)
    (hacc : (0x00000000#32 : BitVec 32) = FKind.add.neutral .f32 hφ) (p : Fin 256) :
    multiReduction .add [1] S256 x0 0x00000000#32 reduces_S256x8192_S256 hφ hacc (ix1 p)
      = ∑ k : Fin 8192, x0 (ix2 p k) := by
  refine (Ideal.multiReduction_add_single x0 0x00000000#32 reduces_S256x8192_S256 hφ hacc (ix1 p)).trans ?_
  refine Finset.sum_congr rfl fun k _ => ?_
  exact congrArg x0 (funext fun a => Fin.ext (by match a with | ⟨0, _⟩ => rfl | ⟨1, _⟩ => rfl))

theorem pay0_apply (x0 : Vec Ideal S256x8192 .f32) (p : Fin 256) (z : Fin 1) :
    k0_pay1 x0 (ix2 p z) = Ideal.rsqrt ((∑ k : Fin 8192, x0 (ix2 p k)) + 1) := by
  unfold k0_pay1
  show Ideal.rsqrt (shapeCast S256x1 (multiReduction (F := Ideal) .add [1] S256 x0 0x00000000#32 reduces_S256x8192_S256 (.inl rfl) rfl) shapeCasts_S256_S256x1 (ix2 p z)
      + (Scalar.ofBits .f32 0x3F800000#32 : Ideal .f32)) = _
  refine congrArg Ideal.rsqrt (congrArg₂ (· + ·) ?_ scalar_one)
  refine (shapeCast_a_a1_apply _ _ p z).trans ?_
  exact rowSum_apply x0 _ _ p

/-! ## The accumulator's zero fill -/

theorem pay1_apply (p q : Fin 512) : k1_pay1 (F := Ideal) (ix2 p q) = 0 := by
  unfold k1_pay1
  refine (congrFun (shapeCast_self _ _) (ix2 p q)).trans ?_
  exact scalar_zero

/-! ## The self loop's term -/

/-- Two numbers below `2 ^ 32` with the same 32-bit word are equal. -/
theorem ofNat32_inj {a b : ℕ} (ha : a < 4294967296) (hb : b < 4294967296)
    (e : BitVec.ofNat 32 a = BitVec.ofNat 32 b) : a = b := by
  have h := congrArg BitVec.toNat e
  rw [BitVec.toNat_ofNat, BitVec.toNat_ofNat, Nat.mod_eq_of_lt (by omega), Nat.mod_eq_of_lt (by omega)] at h
  exact h

/-- The equality test of two such words answers one exactly when the numbers are equal. -/
theorem cmpi_eq_ofNat {a b : ℕ} (ha : a < 4294967296) (hb : b < 4294967296) :
    IntOp.cmpi .eq (BitVec.ofNat 32 a) (BitVec.ofNat 32 b) = if a = b then 1#1 else 0#1 := by
  by_cases h : a = b
  · subst h
    rw [if_pos rfl]
    simp [IntOp.cmpi]
  · rw [if_neg h]
    have hne : BitVec.ofNat 32 a ≠ BitVec.ofNat 32 b := fun e => h (ofNat32_inj ha hb e)
    show BitVec.ofBool (BitVec.ofNat 32 a == BitVec.ofNat 32 b) = 0#1
    rw [beq_eq_false_iff_ne.mpr hne]
    rfl

/-- The one-bit answer, widened to 32 bits and converted, is the extended real one or zero. -/
theorem sitofp_bit (c : Prop) [Decidable c] :
    FloatOps.sitofp (F := Ideal) .f32 ((if c then 1#1 else 0#1 : BitVec 1).setWidth 32) = if c then (1 : EReal) else 0 := by
  by_cases h : c
  · rw [if_pos h, if_pos h]
    show (((((1#1 : BitVec 1).setWidth 32).toInt : ℤ) : ℝ) : EReal) = 1
    rw [show ((1#1 : BitVec 1).setWidth 32).toInt = 1 by decide, Int.cast_one, EReal.coe_one]
  · rw [if_neg h, if_neg h]
    show (((((0#1 : BitVec 1).setWidth 32).toInt : ℤ) : ℝ) : EReal) = 0
    rw [show ((0#1 : BitVec 1).setWidth 32).toInt = 0 by decide, Int.cast_zero, EReal.coe_zero]

/-- The comparison of the row number with the column number, widened and converted, at `(p, k)`: one on the
    diagonal, zero off it. -/
theorem eye_apply (p k : Fin 512) :
    (sitofp .f32 (extui 32 (cmpi .eq (iota .tc S512x512 32 [0] iota_S512x512_d0_w32) (iota .tc S512x512 32 [1] iota_S512x512_d1_w32)) natLt_1_32) : FVec Ideal S512x512 .f32) (ix2 p k)
      = if p = k then (1 : EReal) else 0 := by
  have e0 : iota .tc S512x512 32 [0] iota_S512x512_d0_w32 (ix2 p k) = BitVec.ofNat 32 p.val :=
    iota_single_apply .tc S512x512 32 0 iota_S512x512_d0_w32 (ix2 p k)
  have e1 : iota .tc S512x512 32 [1] iota_S512x512_d1_w32 (ix2 p k) = BitVec.ofNat 32 k.val :=
    iota_single_apply .tc S512x512 32 1 iota_S512x512_d1_w32 (ix2 p k)
  show FloatOps.sitofp (F := Ideal) .f32 ((IntOp.cmpi .eq (iota .tc S512x512 32 [0] iota_S512x512_d0_w32 (ix2 p k)) (iota .tc S512x512 32 [1] iota_S512x512_d1_w32 (ix2 p k))).setWidth 32) = _
  rw [e0, e1, cmpi_eq_ofNat (by have := p.isLt; omega) (by have := k.isLt; omega), sitofp_bit]
  by_cases h : p = k
  · rw [if_pos h, if_pos (congrArg Fin.val h)]
  · rw [if_neg h, if_neg (fun e => h (Fin.ext e))]

/-- The choice between two vectors by the test "row block equals column block", at an index. -/
theorem blockSel_apply (i : grid1.Coords) (a b : FVec Ideal S512x512 .f32) (j : S512x512.Idx) :
    (Scalar.select (Scalar.cmpi .eq (BitVec.ofNat 32 (i 0).val) (BitVec.ofNat 32 (i 1).val)) a b) j
      = if (i 0).val = (i 1).val then a j else b j := by
  have h0 : (i 0).val < 16 := (i 0).isLt
  have h1 : (i 1).val < 16 := (i 1).isLt
  show (Scalar.select (IntOp.cmpi .eq (BitVec.ofNat 32 (i 0).val) (BitVec.ofNat 32 (i 1).val)) a b) j = _
  rw [cmpi_eq_ofNat (by omega) (by omega)]
  by_cases h : (i 0).val = (i 1).val
  · rw [if_pos h, if_pos h, select_one]
  · rw [if_neg h, if_neg h, select_zero]

/-! ## The accumulation step -/

theorem pay2_apply (i : grid1.Coords) (x0 x1 : Vec Ideal S512x512 .f32) (x3 : Vec Ideal S512x1 .f32) (xs : Vec Ideal S512x512 .f32) (p q : Fin 512) :
    k1_pay2 i x0 x1 x3 xs (ix2 p q) = xs (ix2 p q) + ∑ k : Fin 512, (x0 (ix2 p k) + (if (i 0).val = (i 1).val then (if p = k then (1 : EReal) else 0) else 0)) * (x1 (ix2 k q) * x3 (ix2 k (0 : Fin 1))) := by
  unfold k1_pay2
  refine (congrFun (shapeCast_self _ _) (ix2 p q)).trans ?_
  show xs (ix2 p q) + matmul (F := Ideal) dot_S512x512_S512x512_S512x512_1_0_0_1_n_n none (truncf .bf16 (addf x0 _) bitsLt_bf16_f32) (truncf .bf16 (mulf x1 _) bitsLt_bf16_f32) (constant S512x512 .f32 0x00000000#32) (ix2 p q) = _
  refine congrArg (xs (ix2 p q) + ·) ?_
  refine (matmul_zero_apply _ _ p q).trans ?_
  refine Finset.sum_congr rfl fun k _ => ?_
  show (x0 (ix2 p k) + (Scalar.select (Scalar.cmpi .eq (BitVec.ofNat 32 (i 0).val) (BitVec.ofNat 32 (i 1).val)) _ _ : FVec Ideal S512x512 .f32) (ix2 p k))
      * (x1 (ix2 k q) * broadcastTo S512x512 (shapeCast S512x1 x3 shapeCasts_S512x1_S512x1) broadcasts_S512x1_S512x512 (ix2 k q)) = _
  rw [blockSel_apply, eye_apply, broadcast_apply, scalar_zero, broadcastTo_a1_ab_apply, shapeCast_self]

/-! ## The result at the last column block -/

theorem pay3_apply (x4 : Vec Ideal S512x1 .f32) (acc x2 : Vec Ideal S512x512 .f32) (p q : Fin 512) :
    k1_pay3 x4 acc x2 (ix2 p q) = max (∑ k : Fin 512, (acc (ix2 p k) * x4 (ix2 p (0 : Fin 1))) * x2 (ix2 k q)) 0 := by
  unfold k1_pay3
  show max (matmul dot_S512x512_S512x512_S512x512_1_0_0_1_n_n none
      (truncf .bf16 (mulf acc (broadcastTo S512x512 (shapeCast S512x1 x4 shapeCasts_S512x1_S512x1) broadcasts_S512x1_S512x512)) bitsLt_bf16_f32)
      (truncf .bf16 x2 bitsLt_bf16_f32) (constant S512x512 .f32 0x00000000#32) (ix2 p q))
    (Scalar.ofBits .f32 0x00000000#32 : Ideal .f32) = _
  refine congrArg₂ max ?_ scalar_zero
  refine (matmul_zero_apply _ _ p q).trans ?_
  refine Finset.sum_congr rfl fun k _ => ?_
  show acc (ix2 p k) * broadcastTo S512x512 (shapeCast S512x1 x4 shapeCasts_S512x1_S512x1) broadcasts_S512x1_S512x512 (ix2 p k) * x2 (ix2 k q) = _
  rw [broadcastTo_a1_ab_apply, shapeCast_self]

end Cert.KernelIdeal.Hand

end
-- ==== Proof.Spec.lean ====
/-
  Graph convolution with symmetric normalisation, over the extended reals, written two ways.

  The reference's way.  With self loops added, `S r k = A r k + [r = k]`, the degree of row `r` is
  `deg r = ∑ k, S r k`, its normaliser `d r = 1 / √(deg r)`, the normalised adjacency
  `Â r k = S r k · d r · d k`, and the result `max (∑ c, (∑ k, Â r k · H k c) · W c o) 0`.

  The kernel's way.  The degree is `(∑ k, A r k) + 1`, the normaliser its reciprocal square root; the
  columns are walked in 16 blocks of 512 (`col j k = 512 j + k`), each block adding
  `∑ k, S r (col j k) · (H (col j k) c · d (col j k))` to an accumulator, which is scaled by `d r` at the end
  before the product with `W` and the clamp at zero.

  The two agree when every entry is a real number and every degree is positive (`Bridge.lean`).
-/
import Idealize.ShloMosaic.PureOps.Ideal
import Idealize.ShloMosaic.Lib.ValueIdx

noncomputable section

namespace Cert.GraphConv

open Idealize.ShloMosaic Idealize.ShloMosaic.ValueIdx
open scoped BigOperators

/-- The adjacency matrix, the features and the weights as index-to-value functions. -/
abbrev ArrA : Type := (⟨2, ![8192, 8192]⟩ : Shape).Idx → EReal
abbrev ArrH : Type := (⟨2, ![8192, 512]⟩ : Shape).Idx → EReal
abbrev ArrW : Type := (⟨2, ![512, 512]⟩ : Shape).Idx → EReal

/-- The identity matrix's entry. -/
def eyeE (r k : Fin 8192) : EReal := if r = k then 1 else 0

/-! ## The reference's arrangement -/

/-- The adjacency with self loops. -/
def selfLoops (A : ArrA) (r k : Fin 8192) : EReal := A (ix2 r k) + eyeE r k

/-- The degree of a row: the sum of its entries, self loop included. -/
def degR (A : ArrA) (r : Fin 8192) : EReal := ∑ k : Fin 8192, selfLoops A r k

/-- The normaliser `1 / √deg`. -/
def dR (A : ArrA) (r : Fin 8192) : EReal := Ideal.div 1 (Ideal.sqrt (degR A r))

/-- The normalised adjacency `S r k · d r · d k`. -/
def normAdj (A : ArrA) (r k : Fin 8192) : EReal := selfLoops A r k * dR A r * dR A k

/-- The aggregated features `∑ k, Â r k · H k c`. -/
def aggR (A : ArrA) (H : ArrH) (r : Fin 8192) (c : Fin 512) : EReal := ∑ k : Fin 8192, normAdj A r k * H (ix2 k c)

/-- The reference's result at row `r`, column `o`. -/
def refOut (A : ArrA) (H : ArrH) (W : ArrW) (r : Fin 8192) (o : Fin 512) : EReal :=
  max (∑ c : Fin 512, aggR A H r c * W (ix2 c o)) 0

/-! ## The kernel's arrangement -/

/-- The degree as the kernel sums it: the row's entries, then the self loop's one. -/
def degK (A : ArrA) (r : Fin 8192) : EReal := (∑ k : Fin 8192, A (ix2 r k)) + 1

/-- The normaliser as a reciprocal square root. -/
def dK (A : ArrA) (r : Fin 8192) : EReal := Ideal.rsqrt (degK A r)

/-- Column `k` of column block `j`. -/
def col (j : Fin 16) (k : Fin 512) : Fin 8192 := ⟨512 * j.val + k.val, by have := j.isLt; have := k.isLt; omega⟩

/-- What column block `j` adds to the accumulator at row `r`, feature `c`. -/
def partK (A : ArrA) (H : ArrH) (r : Fin 8192) (c : Fin 512) (j : Fin 16) : EReal :=
  ∑ k : Fin 512, selfLoops A r (col j k) * (H (ix2 (col j k) c) * dK A (col j k))

/-- The accumulator after all 16 column blocks. -/
def accK (A : ArrA) (H : ArrH) (r : Fin 8192) (c : Fin 512) : EReal := ∑ j : Fin 16, partK A H r c j

/-- The kernel's result at row `r`, column `o`. -/
def kerOut (A : ArrA) (H : ArrH) (W : ArrW) (r : Fin 8192) (o : Fin 512) : EReal :=
  max (∑ c : Fin 512, (accK A H r c * dK A r) * W (ix2 c o)) 0

end Cert.GraphConv

end
-- ==== Proof.KI.DegValue.lean ====
/-
  The degree kernel's output array, read at an index.

  Each of the 32 grid points `t` loads rows `256 t … 256 t + 255` of the adjacency matrix and writes back, to the same
  rows of the 8192 × 1 normaliser, the reciprocal square root of each row's sum plus one.  A block's element `(p, k)`
  is the array's element `(256 t + p, k)`: the block's index times its extent plus the coordinate inside it.  So what
  point `t` writes back is block `t` of ONE function of the whole array, `r ↦ 1 / √((∑ k, A r k) + 1)`; the 32 blocks
  tile the rows (row `r` lies in block `r / 256`), hence the array ends holding that function everywhere.
-/
import proofs.«181658_j16363825397897_1_alg».proof.Proof.KI.Deg
import proofs.«181658_j16363825397897_1_alg».proof.Proof.KI.Pay
import proofs.«181658_j16363825397897_1_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-- The offsets `(0, 0)` of the body's load and store are the zero offsets. -/
theorem dv_hz : (![0, 0] : Fin 2 → Nat) = fun _ => 0 := funext fun a => by fin_cases a <;> rfl

section
variable (V : (c : Dev nD) → (b : Ref sig .tc) → Buf (Elt Ideal) ((c : Thread nD τ).loc b))

/-- The adjacency array as the region finds it, and the input block at a point, at their literal types. -/
abbrev adjArr (c : Dev nD) : Vec Ideal S8192x8192 .f32 := V c main_arg0
abbrev adjBlk (c : Dev nD) (t : Fin cfg0.N) : Vec Ideal S256x8192 .f32 := iblk0 V c 0 t

/-- The normaliser as one function of the whole adjacency array: at row `r`, `1 / √((∑ k, a r k) + 1)`. -/
abbrev Gd (a : Vec Ideal S8192x8192 .f32) : Vec Ideal S8192x1 .f32 := fun i => Cert.GraphConv.dK a (i 0)

/-- The printed index maps, decided over the 32 points: both windows are at block `(t, 0)`. -/
theorem degIdxFacts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `256 t + p` of the array. -/
abbrev degRowOf (t : Fin cfg0.N) (p : Fin 256) : Fin 8192 :=
  ⟨256 * t.val + p.val, by have := t.isLt; have := p.isLt; have : cfg0.N = 32 := rfl; omega⟩

/-- The input block's element `(p, k)` at point `t` is the array's element `(256 t + p, k)`. -/
theorem adjBlk_apply (c : Dev nD) (t : Fin cfg0.N) (p : Fin 256) (k : Fin 8192) :
    adjBlk V c t (ix2 p k) = adjArr V c (ix2 (degRowOf t p) k) := by
  obtain ⟨e0, e1, e2, e3⟩ := degIdxFacts t
  show V c main_arg0 (((cfg0.win 0).blk t).view.emb (ix2 p k)) = V c main_arg0 (ix2 (degRowOf t p) k)
  refine congrArg (V c main_arg0) ?_
  funext a; apply Fin.ext
  match a with
  | ⟨0, _⟩ => show win0_0.index t (0 : Fin 2) * 256 + 1 * p.val = 256 * t.val + p.val; omega
  | ⟨1, _⟩ => show win0_0.index t (1 : Fin 2) * 8192 + 1 * k.val = k.val; omega

/-- The output block's element `(p, z)` at point `t` sits at `(256 t + p, z)` of the normaliser. -/
theorem degOutEmb (t : Fin cfg0.N) (p : Fin 256) (z : Fin 1) :
    ((cfg0.win 1).blk t).view.emb (ix2 p z) = ix2 (degRowOf t p) z := by
  obtain ⟨e0, e1, e2, e3⟩ := degIdxFacts t
  funext a; apply Fin.ext
  match a with
  | ⟨0, _⟩ => show win0_1.index t (0 : Fin 2) * 256 + 1 * p.val = 256 * t.val + p.val; omega
  | ⟨1, _⟩ => show win0_1.index t (1 : Fin 2) * 1 + 1 * z.val = z.val; omega

/-- The body's payload on the input block, at `(p, z)`: the normaliser of row `256 t + p` of the array. -/
theorem degBlockValue (c : Dev nD) (t : Fin cfg0.N) (p : Fin 256) (z : Fin 1) :
    k0_pay1 (adjBlk V c t) (ix2 p z) = Gd (adjArr V c) (ix2 (degRowOf t p) z) := by
  rw [pay0_apply]
  show Ideal.rsqrt ((∑ k : Fin 8192, adjBlk V c t (ix2 p k)) + 1) = Ideal.rsqrt ((∑ k : Fin 8192, adjArr V c (ix2 (degRowOf t p) k)) + 1)
  simp only [adjBlk_apply]

/-- WHAT POINT `t` WRITES BACK is block `t` of `Gd` of the adjacency array. -/
theorem flushed0_1_eq (c : Dev nD) (t : Fin cfg0.N) :
    (dat0 V c).flushed 1 t = ((cfg0.win 1).blk t).view.read (Elt Ideal) (Gd (adjArr V c)) := by
  show (cfg0.win 1).cut (grid0.coords t) ((dat0 V c).after 1 t) = _
  rw [after0_1]
  unfold out0_1
  rw [View.canon_unit_zero dv_hz]
  simp only [View.ld_unit_zero (S := S256x8192) dv_hz]
  funext j
  obtain ⟨p, z, rfl⟩ : ∃ (p : Fin 256) (z : Fin 1), j = ix2 p z := ⟨j 0, j 1, eq_ix2 (n0 := 256) (n1 := 1) j⟩
  show k0_pay1 (adjBlk V c t) (ix2 p z) = Gd (adjArr V c) (((cfg0.win 1).blk t).view.emb (ix2 p z))
  rw [degOutEmb]
  exact degBlockValue V c t p z

/-- An index of the normaliser is in point `t`'s block iff each coordinate is in the block's range on its axis. -/
theorem mem_blk0_1 (t : Fin cfg0.N) (i : S8192x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v0).slice (win0_1.rect t)).set ↔ _
  rw [View.set_slice_whole, Rect.mem_set_unit]
  exact Iff.rfl

/-- The blocks tile the normaliser: row `r` is in the block of point `r / 256`, and every point writes back. -/
theorem covered0_1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  obtain ⟨t, ht⟩ : ∃ t : Fin cfg0.N, t.val = (i 0).val / 256 := ⟨⟨(i 0).val / 256, by show _ < 32; omega⟩, rfl⟩
  obtain ⟨e0, e1, e2, e3⟩ := degIdxFacts t
  refine ⟨t, flush0_1 t, ?_⟩
  rw [mem_blk0_1]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 1 ≤ (i 1).val ∧ (i 1).val < win0_1.index t (1 : Fin 2) * 1 + 1; omega

/-- THE ARRAY after the region: `Gd` of the adjacency array, everywhere. -/
theorem dinv_arr (c : Dev nD) : (dat0 V c).arrAt 1 cfg0.N = Gd (adjArr V c) :=
  (dat0 V c).arrAt_eq_of_cover 1 (Gd (adjArr V c)) (fun t _ => flushed0_1_eq V c t) covered0_1

/-- … and at row `r`: the kernel's normaliser `1 / √((∑ k, A r k) + 1)`. -/
theorem dinv_final (c : Dev nD) (r : Fin 8192) (z : Fin 1) :
    ((dat0 (F := Ideal) V c).arrAt 1 cfg0.N : FVec Ideal S8192x1 .f32) (ValueIdx.ix2 r z) = Cert.GraphConv.dK (V c main_arg0) r :=
  congrFun (dinv_arr V c) (ix2 r z)

end

end Cert.KernelIdeal.Hand

end
-- ==== Proof.KI.GcPieces.lean ====
/-
  The values the graph-convolution kernel's three control cases leave, read off the pieces each run found.

  In every case the body loads the adjacency block `x0`, the feature block `x1`, the column block's normaliser rows `x3`
  and the accumulator, and stores the update `k1_pay2 i x0 x1 x3 <accumulator>` back over the whole accumulator.  Where
  `j = 0` the accumulator was first overwritten with the zero block `k1_pay1`, so the update is taken from that; where
  `j = 15` the body then loads the row block's normaliser rows `x4`, the accumulator it has just stored and the weights
  `x2`, and stores `k1_pay3 x4 <accumulator> x2` over the whole output block.

  Each store covers its whole buffer at offset zero, so what the buffer ends with is the last store's payload, and each
  load of a whole buffer (or of what one covering store left) reads exactly its contents.
-/
import proofs.«181658_j16363825397897_1_alg».proof.Proof.KI.Gc
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets `(0, 0)` of every load and store of the body are the zero offsets. -/
theorem hz2 : (![0, 0] : Fin 2 → Nat) = fun _ => 0 := funext fun a => by fin_cases a <;> rfl

/-- CASE A (`j = 0`): the accumulator is zeroed, read back, and left at the update of the zero block. -/
theorem sout1_A_0_eq (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : cond1_0 i) (hc1 : ¬cond1_1 i)
    (x0 : Vec F S512x512 .f32) (x1 : Vec F S512x512 .f32) (x2 : Vec F S512x512 .f32) (x3 : Vec F S512x1 .f32) (x4 : Vec F S512x1 .f32) :
    sout1_A_0 c i arg2 harg2 arg3 harg3 arg4 harg4 arg5 harg5 arg6 harg6 arg7 harg7 arg8 harg8 hc0 hc1 x0 x1 x2 x3 x4 = k1_pay2 i x0 x1 x3 (k1_pay1 (F := F)) := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  -- two covering stores, the update last: its payload stays; the accumulator it loaded is the zero block stored first
  rw [View.canon_cons_unit_zero (S := S512x512) hz2, View.readCov_unit_zero (S := S512x512) _ hz2]
  simp only [View.readAt_eq_ld, harg2.read_unread, harg3.read_unread, harg4.read_unread, harg5.read_unread, harg6.read_unread, harg8.read_unread, View.ld_unit_zero (S := S512x512) hz2, View.ld_unit_zero (S := S512x1) hz2]

/-- CASE B (`0 < j < 15`): the accumulator, found at `xs0`, is left at its update. -/
theorem sout1_B_0_eq (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : ¬cond1_1 i)
    (x0 : Vec F S512x512 .f32) (x1 : Vec F S512x512 .f32) (x2 : Vec F S512x512 .f32) (x3 : Vec F S512x1 .f32) (x4 : Vec F S512x1 .f32) (xs0 : Vec F S512x512 .f32) :
    sout1_B_0 c i arg2 harg2 arg3 harg3 arg4 harg4 arg5 harg5 arg6 harg6 arg7 harg7 arg8 harg8 hc0 hc1 x0 x1 x2 x3 x4 xs0 = k1_pay2 i x0 x1 x3 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  sl_unfold_words
  rw [View.canon_unit_zero hz2]
  simp only [View.readAt_eq_ld, harg2.read_unread, harg3.read_unread, harg4.read_unread, harg5.read_unread, harg6.read_unread, harg8.read_unread, View.ld_unit_zero (S := S512x512) hz2, View.ld_unit_zero (S := S512x1) hz2]

/-- CASE C (`j = 15`), the accumulator: found at `xs0`, left at its update, as in case B. -/
theorem sout1_C_0_eq (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) :
    sout1_C_0 c i arg2 harg2 arg3 harg3 arg4 harg4 arg5 harg5 arg6 harg6 arg7 harg7 arg8 harg8 hc0 hc1 x0 x1 x2 x3 x4 xs0 = k1_pay2 i x0 x1 x3 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  simp only [View.readAt_eq_ld, harg2.read_unread, harg3.read_unread, harg4.read_unread, harg5.read_unread, harg6.read_unread, harg8.read_unread, View.ld_unit_zero (S := S512x512) hz2, View.ld_unit_zero (S := S512x1) hz2]

/-- CASE C (`j = 15`), the output block: the scaled accumulator's product with the weights, clamped at zero, taken of
    the accumulator the same run has just updated. -/
theorem out1_C_5_eq (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x512 .f32) (harg7 : arg7.IsWhole) (arg8 : Memref sig .tc .vmem S512x512 .f32) (harg8 : arg8.IsWhole) (hc0 : ¬cond1_0 i) (hc1 : cond1_1 i)
    (x0 : Vec F S512x512 .f32) (x1 : Vec F S512x512 .f32) (x2 : Vec F S512x512 .f32) (x3 : Vec F S512x1 .f32) (x4 : Vec F S512x1 .f32) (xs0 : Vec F S512x512 .f32) :
    out1_C_5 c i arg2 harg2 arg3 harg3 arg4 harg4 arg5 harg5 arg6 harg6 arg7 harg7 arg8 harg8 hc0 hc1 x0 x1 x2 x3 x4 xs0 = k1_pay3 x4 (k1_pay2 i x0 x1 x3 xs0) x2 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz2]
  -- the accumulator loaded after the update's store reads that store's payload
  simp only [View.readCov_unit_zero (S := S512x512) _ hz2, View.readAt_eq_ld, harg2.read_unread, harg3.read_unread, harg4.read_unread, harg5.read_unread, harg6.read_unread, harg8.read_unread, View.ld_unit_zero (S := S512x512) hz2, View.ld_unit_zero (S := S512x1) hz2]

end Cert.KernelIdeal.Hand

end
-- ==== Proof.KI.GcBlocks.lean ====
/-
  The graph-convolution kernel's input blocks, read entry by entry off the arrays the region is entered from.

  The grid is 16 × 16, its points numbered row-major: point `t` is row block `i = t / 16`, column block `j = t % 16`.
  A window's block at a point is its array read through a rectangle whose coordinate on each axis is
  (the window's block index at the point on that axis) × (the block's extent on that axis) + (the coordinate inside the
  block).  The five input windows' block indices are `(i, j)` for the adjacency, `(j, 0)` for the features, `(0, 0)` for
  the weights, `(j, 0)` for the column block's normaliser rows and `(i, 0)` for the row block's normaliser rows; every
  block has 512 rows.  So entry `(p, k)` of the adjacency's block is the adjacency at row `512 i + p`, column
  `512 j + k`; entry `(k, q)` of the features' block is the features at row `512 j + k`; the weights' block is the
  weights; and the two normaliser blocks are the normaliser's rows `512 j + k` and `512 i + p`.
-/
import proofs.«181658_j16363825397897_1_alg».proof.Proof.KI.Gc
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The grid's points and the windows' block indices -/

/-- The coordinates of point `t`: row-major on the 16 × 16 grid. -/
theorem coords1 : ∀ t : Fin cfg1.N, ((grid1.coords t) 0).val = t.val / 16 ∧ ((grid1.coords t) 1).val = t.val % 16 :=
  (by decide +kernel : ∀ t : Fin grid1.N, _)

theorem coords1_0 (t : Fin cfg1.N) : ((grid1.coords t) 0).val = t.val / 16 := (coords1 t).1
theorem coords1_1 (t : Fin cfg1.N) : ((grid1.coords t) 1).val = t.val % 16 := (coords1 t).2

/-- The adjacency's block index at point `t` is `(i, j)`. -/
theorem idx1_0 : ∀ t : Fin cfg1.N, win1_0.index t (0 : Fin 2) = t.val / 16 ∧ win1_0.index t (1 : Fin 2) = t.val % 16 :=
  (by decide +kernel : ∀ t : Fin grid1.N, _)
/-- The features' block index at point `t` is `(j, 0)`. -/
theorem idx1_1 : ∀ t : Fin cfg1.N, win1_1.index t (0 : Fin 2) = t.val % 16 ∧ win1_1.index t (1 : Fin 2) = 0 :=
  (by decide +kernel : ∀ t : Fin grid1.N, _)
/-- The weights' block index is `(0, 0)` at every point. -/
theorem idx1_2 : ∀ t : Fin cfg1.N, win1_2.index t (0 : Fin 2) = 0 ∧ win1_2.index t (1 : Fin 2) = 0 :=
  (by decide +kernel : ∀ t : Fin grid1.N, _)
/-- The column block's normaliser rows: block index `(j, 0)`. -/
theorem idx1_3 : ∀ t : Fin cfg1.N, win1_3.index t (0 : Fin 2) = t.val % 16 ∧ win1_3.index t (1 : Fin 2) = 0 :=
  (by decide +kernel : ∀ t : Fin grid1.N, _)
/-- The row block's normaliser rows: block index `(i, 0)`. -/
theorem idx1_4 : ∀ t : Fin cfg1.N, win1_4.index t (0 : Fin 2) = t.val / 16 ∧ win1_4.index t (1 : Fin 2) = 0 :=
  (by decide +kernel : ∀ t : Fin grid1.N, _)

/-- Row `p` of the row block of point `t`: row `512 i + p` of the array. -/
def rowOf (t : Fin cfg1.N) (p : Fin 512) : Fin 8192 :=
  ⟨512 * (t.val / 16) + p.val, by
    have ht : t.val < 256 := lt_of_lt_of_eq t.isLt (show cfg1.N = 256 from N_1)
    have hp := p.isLt
    omega⟩

/-- Column `k` of the column block of point `t`: column `512 j + k` of the array. -/
def colOf (t : Fin cfg1.N) (k : Fin 512) : Fin 8192 :=
  ⟨512 * (t.val % 16) + k.val, by
    have hk := k.isLt
    omega⟩

section
variable (V : (c : Dev nD) → (b : Ref sig .tc) → Buf (Elt Ideal) ((c : Thread nD τ).loc b))

/-! ## The blocks, entry by entry -/

/-- The adjacency's block at point `t`: rows `512 i + p`, columns `512 j + k`. -/
theorem iblk1_0_apply (c : Dev nD) (t : Fin cfg1.N) (p k : Fin 512) :
    (iblk1 (F := Ideal) V c 0 t : Vec Ideal S512x512 .f32) (ix2 p k) = (V c main_arg0 : FVec Ideal S8192x8192 .f32) (ix2 (rowOf t p) (colOf t k)) := by
  obtain ⟨e0, e1⟩ := idx1_0 t
  show V c main_arg0 (((cfg1.win 0).blk t).view.emb (ix2 p k)) = V c main_arg0 (ix2 (rowOf t p) (colOf t k))
  refine congrArg _ ?_
  funext a; apply Fin.ext
  match a with
  | ⟨0, _⟩ => show win1_0.index t (0 : Fin 2) * 512 + 1 * p.val = 512 * (t.val / 16) + p.val; omega
  | ⟨1, _⟩ => show win1_0.index t (1 : Fin 2) * 512 + 1 * k.val = 512 * (t.val % 16) + k.val; omega

/-- The features' block at point `t`: rows `512 j + k`, every feature. -/
theorem iblk1_1_apply (c : Dev nD) (t : Fin cfg1.N) (k q : Fin 512) :
    (iblk1 (F := Ideal) V c 1 t : Vec Ideal S512x512 .f32) (ix2 k q) = (V c main_arg1 : FVec Ideal S8192x512 .f32) (ix2 (colOf t k) q) := by
  obtain ⟨e0, e1⟩ := idx1_1 t
  show V c main_arg1 (((cfg1.win 1).blk t).view.emb (ix2 k q)) = V c main_arg1 (ix2 (colOf t k) q)
  refine congrArg _ ?_
  funext a; apply Fin.ext
  match a with
  | ⟨0, _⟩ => show win1_1.index t (0 : Fin 2) * 512 + 1 * k.val = 512 * (t.val % 16) + k.val; omega
  | ⟨1, _⟩ => show win1_1.index t (1 : Fin 2) * 512 + 1 * q.val = q.val; omega

/-- The weights' block at every point is the weights. -/
theorem iblk1_2_apply (c : Dev nD) (t : Fin cfg1.N) (k q : Fin 512) :
    (iblk1 (F := Ideal) V c 2 t : Vec Ideal S512x512 .f32) (ix2 k q) = (V c main_arg2 : FVec Ideal S512x512 .f32) (ix2 k q) := by
  obtain ⟨e0, e1⟩ := idx1_2 t
  show V c main_arg2 (((cfg1.win 2).blk t).view.emb (ix2 k q)) = V c main_arg2 (ix2 k q)
  refine congrArg _ ?_
  funext a; apply Fin.ext
  match a with
  | ⟨0, _⟩ => show win1_2.index t (0 : Fin 2) * 512 + 1 * k.val = k.val; omega
  | ⟨1, _⟩ => show win1_2.index t (1 : Fin 2) * 512 + 1 * q.val = q.val; omega

/-- The column block's normaliser rows at point `t`: rows `512 j + k`. -/
theorem iblk1_3_apply (c : Dev nD) (t : Fin cfg1.N) (k : Fin 512) (z : Fin 1) :
    (iblk1 (F := Ideal) V c 3 t : Vec Ideal S512x1 .f32) (ix2 k z) = (V c main_v0 : FVec Ideal S8192x1 .f32) (ix2 (colOf t k) z) := by
  obtain ⟨e0, e1⟩ := idx1_3 t
  show V c main_v0 (((cfg1.win 3).blk t).view.emb (ix2 k z)) = V c main_v0 (ix2 (colOf t k) z)
  refine congrArg _ ?_
  funext a; apply Fin.ext
  match a with
  | ⟨0, _⟩ => show win1_3.index t (0 : Fin 2) * 512 + 1 * k.val = 512 * (t.val % 16) + k.val; omega
  | ⟨1, _⟩ => show win1_3.index t (1 : Fin 2) * 1 + 1 * z.val = z.val; omega

/-- The row block's normaliser rows at point `t`: rows `512 i + p`. -/
theorem iblk1_4_apply (c : Dev nD) (t : Fin cfg1.N) (p : Fin 512) (z : Fin 1) :
    (iblk1 (F := Ideal) V c 4 t : Vec Ideal S512x1 .f32) (ix2 p z) = (V c main_v0 : FVec Ideal S8192x1 .f32) (ix2 (rowOf t p) z) := by
  obtain ⟨e0, e1⟩ := idx1_4 t
  show V c main_v0 (((cfg1.win 4).blk t).view.emb (ix2 p z)) = V c main_v0 (ix2 (rowOf t p) z)
  refine congrArg _ ?_
  funext a; apply Fin.ext
  match a with
  | ⟨0, _⟩ => show win1_4.index t (0 : Fin 2) * 512 + 1 * p.val = 512 * (t.val / 16) + p.val; omega
  | ⟨1, _⟩ => show win1_4.index t (1 : Fin 2) * 1 + 1 * z.val = z.val; omega

end

end Cert.KernelIdeal.Hand

end
-- ==== Proof.KI.GcValue.lean ====
/-
  The value of the graph-convolution kernel's output array over the extended reals.

  Grid point `t` is row block `t / 16`, column block `t % 16`.  After the point the accumulator holds, at row `p` and
  feature `q` of the block, the sum over the column blocks `j' ≤ t % 16` of `partK` at row `512 (t / 16) + p`: the
  point with `t % 16 = 0` starts the sum at its own block term, every other point adds its block term to what the point
  before left (same row block, column block one less).  The block term is `partK` because the adjacency block, the
  feature block and the normaliser rows the point is handed are the corresponding entries of the whole arrays, and the
  diagonal the body adds when row block and column block agree is the identity matrix's entry.

  At the points with `t % 16 = 15`, the only ones whose output block is written back, the sum runs over all sixteen column
  blocks, so the block stored is `kerOut` at the block's rows; the sixteen row blocks tile the output array.
-/
import proofs.«181658_j16363825397897_1_alg».proof.Proof.KI.GcBody
import proofs.«181658_j16363825397897_1_alg».proof.Proof.KI.GcPieces
import proofs.«181658_j16363825397897_1_alg».proof.Proof.KI.Pay
import proofs.«181658_j16363825397897_1_alg».proof.Proof.KI.GcBlocks
import proofs.«181658_j16363825397897_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.GraphConv
open scoped BigOperators

/-! ## Sums over the first column blocks -/

/-- The sum of `f` over the column blocks `j' ≤ m`. -/
def upTo (m : ℕ) (f : Fin 16 → EReal) : EReal := ∑ j' : Fin 16, if j'.val ≤ m then f j' else 0

theorem upTo_zero (f : Fin 16 → EReal) : upTo 0 f = f 0 := by
  unfold upTo
  rw [Finset.sum_eq_single (0 : Fin 16)]
  · rfl
  · intro b _ hb
    have hb' : ¬ b.val ≤ 0 := fun h => hb (Fin.ext (by have : (0 : Fin 16).val = 0 := rfl; omega))
    rw [if_neg hb']
  · intro h; exact absurd (Finset.mem_univ _) h

theorem upTo_succ (m : ℕ) (hm : m + 1 < 16) (f : Fin 16 → EReal) : upTo (m + 1) f = upTo m f + f ⟨m + 1, hm⟩ := by
  unfold upTo
  have hterm : ∀ j' : Fin 16, (if j'.val ≤ m + 1 then f j' else 0)
      = (if j'.val ≤ m then f j' else 0) + (if j' = ⟨m + 1, hm⟩ then f j' else 0) := by
    intro j'
    by_cases h1 : j'.val ≤ m
    · have h3 : j' ≠ ⟨m + 1, hm⟩ := fun e => by have := congrArg Fin.val e; dsimp only at this; omega
      rw [if_pos h1, if_pos (by omega), if_neg h3, add_zero]
    · by_cases h2 : j'.val = m + 1
      · rw [if_neg h1, if_pos (by omega), if_pos (Fin.ext h2), zero_add]
      · have h3 : j' ≠ ⟨m + 1, hm⟩ := fun e => h2 (congrArg Fin.val e)
        rw [if_neg h1, if_neg (by omega), if_neg h3, add_zero]
  rw [Finset.sum_congr rfl (fun j' _ => hterm j'), Finset.sum_add_distrib, Finset.sum_ite_eq', if_pos (Finset.mem_univ _)]

theorem upTo_all (f : Fin 16 → EReal) : upTo 15 f = ∑ j' : Fin 16, f j' := by
  unfold upTo
  exact Finset.sum_congr rfl fun j' _ => if_pos (by have := j'.isLt; omega)

section
variable (V : (c : Dev nD) → (b : Ref sig .tc) → Buf (Elt Ideal) ((c : Thread nD τ).loc b))

/-! ## The blocks a point is handed, by their literal types -/

abbrev bA (c : Dev nD) (t : Fin cfg1.N) : Vec Ideal S512x512 .f32 := iblk1 (F := Ideal) V c 0 t
abbrev bH (c : Dev nD) (t : Fin cfg1.N) : Vec Ideal S512x512 .f32 := iblk1 (F := Ideal) V c 1 t
abbrev bW (c : Dev nD) (t : Fin cfg1.N) : Vec Ideal S512x512 .f32 := iblk1 (F := Ideal) V c 2 t
abbrev bDc (c : Dev nD) (t : Fin cfg1.N) : Vec Ideal S512x1 .f32 := iblk1 (F := Ideal) V c 3 t
abbrev bDr (c : Dev nD) (t : Fin cfg1.N) : Vec Ideal S512x1 .f32 := iblk1 (F := Ideal) V c 4 t

/-- The column block of a grid point. -/
def jOf (t : Fin cfg1.N) : Fin 16 := ⟨t.val % 16, Nat.mod_lt _ (by decide)⟩

/-! ## The block term is `partK` -/

/-- The diagonal the body adds where row block and column block agree is the identity matrix's entry. -/
theorem diag_eq (t : Fin cfg1.N) (p k : Fin 512) :
    (if ((grid1.coords t) 0).val = ((grid1.coords t) 1).val then (if p = k then (1 : EReal) else 0) else 0)
      = eyeE (rowOf t p) (colOf t k) := by
  rw [coords1_0, coords1_1]
  unfold eyeE
  have hp := p.isLt
  have hk := k.isLt
  have hiff : rowOf t p = colOf t k ↔ (t.val / 16 = t.val % 16 ∧ p = k) := by
    constructor
    · intro h
      have hv : 512 * (t.val / 16) + p.val = 512 * (t.val % 16) + k.val := congrArg Fin.val h
      exact ⟨by omega, Fin.ext (by omega)⟩
    · rintro ⟨h1, h2⟩
      apply Fin.ext
      show 512 * (t.val / 16) + p.val = 512 * (t.val % 16) + k.val
      rw [h1, h2]
  by_cases h : t.val / 16 = t.val % 16
  · rw [if_pos h]
    by_cases hpk : p = k
    · rw [if_pos hpk, if_pos (hiff.mpr ⟨h, hpk⟩)]
    · rw [if_neg hpk, if_neg (fun e => hpk (hiff.mp e).2)]
  · rw [if_neg h, if_neg (fun e => h (hiff.mp e).1)]

/-- What a point adds to the accumulator at row `p`, feature `q` of its block is `partK` at the point's column block. -/
theorem block_partK (c : Dev nD) (hD : ∀ (r : Fin 8192) (z : Fin 1), (V c main_v0 : FVec Ideal S8192x1 .f32) (ix2 r z) = Cert.GraphConv.dK (V c main_arg0) r) (t : Fin cfg1.N) (p q : Fin 512) :
    (∑ k : Fin 512, (bA V c t (ix2 p k) + (if ((grid1.coords t) 0).val = ((grid1.coords t) 1).val then (if p = k then (1 : EReal) else 0) else 0))
        * (bH V c t (ix2 k q) * bDc V c t (ix2 k (0 : Fin 1))))
      = partK (V c main_arg0) (V c main_arg1) (rowOf t p) q (jOf t) := by
  unfold partK
  refine Finset.sum_congr rfl fun k _ => ?_
  have hc : col (jOf t) k = colOf t k := rfl
  rw [hc]
  unfold selfLoops
  have e0 : bA V c t (ix2 p k) = (V c main_arg0 : FVec Ideal S8192x8192 .f32) (ix2 (rowOf t p) (colOf t k)) := iblk1_0_apply V c t p k
  have e1 : bH V c t (ix2 k q) = (V c main_arg1 : FVec Ideal S8192x512 .f32) (ix2 (colOf t k) q) := iblk1_1_apply V c t k q
  have e3 : bDc V c t (ix2 k (0 : Fin 1)) = dK (V c main_arg0) (colOf t k) := (iblk1_3_apply V c t k 0).trans (hD _ _)
  rw [e0, e1, e3, diag_eq t p k]

/-! ## The accumulator after each point -/

/-- At a point of the first column block the accumulator is left at the point's block term. -/
theorem acc_A (c : Dev nD) (hD : ∀ (r : Fin 8192) (z : Fin 1), (V c main_v0 : FVec Ideal S8192x1 .f32) (ix2 r z) = Cert.GraphConv.dK (V c main_arg0) r) (t : Fin cfg1.N) (h0 : t.val % 16 = 0) (p q : Fin 512) :
    ((outsAt1 (F := Ideal) V c t.val t.isLt).2 : Vec Ideal S512x512 .f32) (ix2 p q)
      = partK (V c main_arg0) (V c main_arg1) (rowOf t p) q (jOf t) := by
  have hN : t.val < 256 := lt_of_lt_of_eq t.isLt (show cfg1.N = 256 from N_1)
  have h1 : ¬ t.val % 16 = 15 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (bA V c t) (bH V c t) (bW V c t) (bDc V c t) (bDr V c t)) (ix2 p q)).trans ?_
  refine (pay2_apply (grid1.coords t) (bA V c t) (bH V c t) (bDc V c t) (k1_pay1 (F := Ideal)) p q).trans ?_
  rw [pay1_apply, zero_add]
  exact block_partK V c hD t p q

/-- At any other point it is what the point before left plus the point's block term. -/
theorem acc_BC (c : Dev nD) (hD : ∀ (r : Fin 8192) (z : Fin 1), (V c main_v0 : FVec Ideal S8192x1 .f32) (ix2 r z) = Cert.GraphConv.dK (V c main_arg0) r) (t : Fin cfg1.N) (h0 : ¬ t.val % 16 = 0) (p q : Fin 512) :
    ((outsAt1 (F := Ideal) V c t.val t.isLt).2 : Vec Ideal S512x512 .f32) (ix2 p q)
      = ((outsAt1 (F := Ideal) V c (t.val - 1) (Nat.lt_of_le_of_lt (Nat.sub_le _ _) t.isLt)).2 : Vec Ideal S512x512 .f32) (ix2 p q)
        + partK (V c main_arg0) (V c main_arg1) (rowOf t p) q (jOf t) := by
  by_cases h1 : t.val % 16 = 15
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (bA V c t) (bH V c t) (bW V c t) (bDc V c t) (bDr V c t) ((outsAt1 (F := Ideal) V c (t.val - 1) (Nat.lt_of_le_of_lt (Nat.sub_le _ _) t.isLt)).2 : Vec Ideal S512x512 .f32)) (ix2 p q)).trans ?_
    refine (pay2_apply (grid1.coords t) (bA V c t) (bH V c t) (bDc V c t) ((outsAt1 (F := Ideal) V c (t.val - 1) (Nat.lt_of_le_of_lt (Nat.sub_le _ _) t.isLt)).2 : Vec Ideal S512x512 .f32) p q).trans ?_
    exact congrArg (fun s => ((outsAt1 (F := Ideal) V c (t.val - 1) (Nat.lt_of_le_of_lt (Nat.sub_le _ _) t.isLt)).2 : Vec Ideal S512x512 .f32) (ix2 p q) + s) (block_partK V c hD t p q)
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (bA V c t) (bH V c t) (bW V c t) (bDc V c t) (bDr V c t) ((outsAt1 (F := Ideal) V c (t.val - 1) (Nat.lt_of_le_of_lt (Nat.sub_le _ _) t.isLt)).2 : Vec Ideal S512x512 .f32)) (ix2 p q)).trans ?_
    refine (pay2_apply (grid1.coords t) (bA V c t) (bH V c t) (bDc V c t) ((outsAt1 (F := Ideal) V c (t.val - 1) (Nat.lt_of_le_of_lt (Nat.sub_le _ _) t.isLt)).2 : Vec Ideal S512x512 .f32) p q).trans ?_
    exact congrArg (fun s => ((outsAt1 (F := Ideal) V c (t.val - 1) (Nat.lt_of_le_of_lt (Nat.sub_le _ _) t.isLt)).2 : Vec Ideal S512x512 .f32) (ix2 p q) + s) (block_partK V c hD t p q)

theorem acc_at_A (c : Dev nD) (hD : ∀ (r : Fin 8192) (z : Fin 1), (V c main_v0 : FVec Ideal S8192x1 .f32) (ix2 r z) = Cert.GraphConv.dK (V c main_arg0) r) (t : Fin cfg1.N) (h0 : t.val % 16 = 0) (p q : Fin 512) :
    ((outsAt1 (F := Ideal) V c t.val t.isLt).2 : Vec Ideal S512x512 .f32) (ix2 p q)
      = upTo (t.val % 16) (fun j' => partK (V c main_arg0) (V c main_arg1) (rowOf t p) q j') := by
  refine (acc_A V c hD t h0 p q).trans ?_
  have hj : jOf t = (0 : Fin 16) := Fin.ext h0
  rw [h0, upTo_zero, hj]

/-- The accumulator after position `n`: the sum of `partK` over the column blocks up to the point's own. -/
theorem acc_at (c : Dev nD) (hD : ∀ (r : Fin 8192) (z : Fin 1), (V c main_v0 : FVec Ideal S8192x1 .f32) (ix2 r z) = Cert.GraphConv.dK (V c main_arg0) r) :
    ∀ (n : ℕ) (hn : n < cfg1.N) (p q : Fin 512),
      ((outsAt1 (F := Ideal) V c n hn).2 : Vec Ideal S512x512 .f32) (ix2 p q)
        = upTo (n % 16) (fun j' => partK (V c main_arg0) (V c main_arg1) (rowOf ⟨n, hn⟩ p) q j')
  | 0, hn, p, q => acc_at_A V c hD ⟨0, hn⟩ (Nat.zero_mod _) p q
  | n + 1, hn, p, q => by
    by_cases h0 : (n + 1) % 16 = 0
    · exact acc_at_A V c hD ⟨n + 1, hn⟩ h0 p q
    · have ih := acc_at c hD n (Nat.lt_of_succ_lt hn) p q
      have hm : (n + 1) % 16 = n % 16 + 1 := by omega
      have hlt : n % 16 + 1 < 16 := by omega
      have hrow : rowOf ⟨n, Nat.lt_of_succ_lt hn⟩ p = rowOf ⟨n + 1, hn⟩ p :=
        Fin.ext (by show 512 * (n / 16) + p.val = 512 * ((n + 1) / 16) + p.val; omega)
      have hj : jOf ⟨n + 1, hn⟩ = ⟨n % 16 + 1, hlt⟩ := Fin.ext hm
      refine (acc_BC V c hD ⟨n + 1, hn⟩ h0 p q).trans ?_
      rw [hm, upTo_succ _ hlt, hj, ← hrow]
      exact congrArg (fun s => s + partK (V c main_arg0) (V c main_arg1) (rowOf ⟨n, Nat.lt_of_succ_lt hn⟩ p) q ⟨n % 16 + 1, hlt⟩) ih

/-- The accumulator after point `t`. -/
theorem acc_apply (c : Dev nD) (hD : ∀ (r : Fin 8192) (z : Fin 1), (V c main_v0 : FVec Ideal S8192x1 .f32) (ix2 r z) = Cert.GraphConv.dK (V c main_arg0) r) (t : Fin cfg1.N) (p q : Fin 512) :
    ((outsAt1 (F := Ideal) V c t.val t.isLt).2 : Vec Ideal S512x512 .f32) (ix2 p q)
      = ∑ j' : Fin 16, if j'.val ≤ t.val % 16 then Cert.GraphConv.partK (V c main_arg0) (V c main_arg1) (rowOf t p) q j' else 0 :=
  acc_at V c hD t.val t.isLt p q

/-! ## The output block at the last column block -/

/-- At a point of the last column block the output's buffer is left at `kerOut` of the block's rows. -/
theorem outC_apply (c : Dev nD) (hD : ∀ (r : Fin 8192) (z : Fin 1), (V c main_v0 : FVec Ideal S8192x1 .f32) (ix2 r z) = Cert.GraphConv.dK (V c main_arg0) r) (t : Fin cfg1.N) (h1 : t.val % 16 = 15) (p q : Fin 512) :
    ((outsAt1 (F := Ideal) V c t.val t.isLt).1 : Vec Ideal S512x512 .f32) (ix2 p q)
      = kerOut (V c main_arg0) (V c main_arg1) (V c main_arg2) (rowOf t p) q := by
  have h0 : ¬ t.val % 16 = 0 := by omega
  -- the accumulator the same run has just updated, as a whole block
  have hacc : ((outsAt1 (F := Ideal) V c t.val t.isLt).2 : Vec Ideal S512x512 .f32)
      = k1_pay2 (grid1.coords t) (bA V c t) (bH V c t) (bDc V c t) ((outsAt1 (F := Ideal) V c (t.val - 1) (Nat.lt_of_le_of_lt (Nat.sub_le _ _) t.isLt)).2 : Vec Ideal S512x512 .f32) := by
    rw [outsAt1_C V c t h0 h1]
    dsimp only
    exact sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (bA V c t) (bH V c t) (bW V c t) (bDc V c t) (bDr V c t) ((outsAt1 (F := Ideal) V c (t.val - 1) (Nat.lt_of_le_of_lt (Nat.sub_le _ _) t.isLt)).2 : Vec Ideal S512x512 .f32)
  rw [outsAt1_C V c t h0 h1]
  dsimp only
  refine (congrFun (out1_C_5_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (bA V c t) (bH V c t) (bW V c t) (bDc V c t) (bDr V c t) ((outsAt1 (F := Ideal) V c (t.val - 1) (Nat.lt_of_le_of_lt (Nat.sub_le _ _) t.isLt)).2 : Vec Ideal S512x512 .f32)) (ix2 p q)).trans ?_
  refine (pay3_apply (bDr V c t) (k1_pay2 (grid1.coords t) (bA V c t) (bH V c t) (bDc V c t) ((outsAt1 (F := Ideal) V c (t.val - 1) (Nat.lt_of_le_of_lt (Nat.sub_le _ _) t.isLt)).2 : Vec Ideal S512x512 .f32)) (bW V c t) p q).trans ?_
  unfold kerOut
  refine congrArg (fun s => max s 0) (Finset.sum_congr rfl fun k _ => ?_)
  have ea : k1_pay2 (grid1.coords t) (bA V c t) (bH V c t) (bDc V c t) ((outsAt1 (F := Ideal) V c (t.val - 1) (Nat.lt_of_le_of_lt (Nat.sub_le _ _) t.isLt)).2 : Vec Ideal S512x512 .f32) (ix2 p k)
      = accK (V c main_arg0) (V c main_arg1) (rowOf t p) k := by
    refine (congrFun hacc (ix2 p k)).symm.trans ((acc_at V c hD t.val t.isLt p k).trans ?_)
    rw [h1, upTo_all]
    rfl
  have e4 : bDr V c t (ix2 p (0 : Fin 1)) = dK (V c main_arg0) (rowOf t p) := (iblk1_4_apply V c t p 0).trans (hD _ _)
  have e2 : bW V c t (ix2 k q) = (V c main_arg2 : FVec Ideal S512x512 .f32) (ix2 k q) := iblk1_2_apply V c t k q
  rw [ea, e4, e2]

/-! ## From the blocks to the array -/

/-- The output array's contents: `kerOut` at every row and column. -/
def Gout (c : Dev nD) : FVec Ideal S8192x512 .f32 :=
  fun i => kerOut (V c main_arg0) (V c main_arg1) (V c main_arg2) ⟨(i 0).val, idx2_lt0 i⟩ ⟨(i 1).val, idx2_lt1 i⟩

/-- The output window's block index at a point: its row block, and the one column block. -/
theorem idx5 : ∀ t : Fin cfg1.N, win1_5.index t (0 : Fin 2) = t.val / 16 ∧ win1_5.index t (1 : Fin 2) = 0 :=
  (by decide +kernel : ∀ t : Fin grid1.N, win1_5.index t (0 : Fin 2) = t.val / 16 ∧ win1_5.index t (1 : Fin 2) = 0)

/-- What a point of the last column block writes back is its block of `Gout`. -/
theorem flushed5_eq (c : Dev nD) (hD : ∀ (r : Fin 8192) (z : Fin 1), (V c main_v0 : FVec Ideal S8192x1 .f32) (ix2 r z) = Cert.GraphConv.dK (V c main_arg0) r) (t : Fin cfg1.N) (hf : (cfg1.win 5).flush t = true) :
    (dat1 (F := Ideal) V c).flushed 5 t = ((cfg1.win 5).blk t).view.read (Elt Ideal) (Gout V c) := by
  have h1 : t.val % 16 = 15 := (flush1_5 t).mp hf
  obtain ⟨e0, e1⟩ := idx5 t
  show (cfg1.win 5).cut (grid1.coords t) ((dat1 (F := Ideal) V c).after 5 t) = _
  rw [after1_5]
  funext j
  obtain ⟨p, q, rfl⟩ : ∃ (p q : Fin 512), j = ix2 p q := ⟨j 0, j 1, eq_ix2 j⟩
  show ((outsAt1 (F := Ideal) V c t.val t.isLt).1 : Vec Ideal S512x512 .f32) (ix2 p q)
      = Gout V c (((cfg1.win 5).blk t).view.emb (ix2 p q))
  rw [outC_apply V c hD t h1 p q]
  unfold Gout
  refine congrArg₂ (kerOut (V c main_arg0) (V c main_arg1) (V c main_arg2)) (Fin.ext ?_) (Fin.ext ?_)
  · show 512 * (t.val / 16) + p.val = win1_5.index t (0 : Fin 2) * 512 + 1 * p.val
    rw [e0]; omega
  · show q.val = win1_5.index t (1 : Fin 2) * 512 + 1 * q.val
    rw [e1]; omega

/-- An index of the output array is in point `t`'s block iff each coordinate is in the block's range on its axis. -/
theorem mem_blk5 (t : Fin cfg1.N) (i : S8192x512.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v1).slice (win1_5.rect t)).set ↔ _
  rw [View.set_slice_whole, Rect.mem_set_unit]
  exact Iff.rfl

/-- Every index of the output array lies in the block of the last-column-block point of its row block. -/
theorem cover5 (i : S8192x512.Idx) : ∃ t : Fin cfg1.N, (cfg1.win 5).flush t = true ∧ i ∈ ((cfg1.win 5).blk t).view.set := by
  have hi0 : (i 0).val < 8192 := idx2_lt0 i
  have hi1 : (i 1).val < 512 := idx2_lt1 i
  have hN : cfg1.N = 256 := N_1
  have ht : 16 * ((i 0).val / 512) + 15 < cfg1.N := by omega
  refine ⟨⟨16 * ((i 0).val / 512) + 15, ht⟩, (flush1_5 _).mpr (by show (16 * ((i 0).val / 512) + 15) % 16 = 15; omega), ?_⟩
  obtain ⟨e0, e1⟩ := idx5 ⟨16 * ((i 0).val / 512) + 15, ht⟩
  have e0' : win1_5.index ⟨16 * ((i 0).val / 512) + 15, ht⟩ (0 : Fin 2) = (i 0).val / 512 := by
    rw [e0]; show (16 * ((i 0).val / 512) + 15) / 16 = (i 0).val / 512; omega
  rw [mem_blk5]
  intro a
  match a with
  | ⟨0, _⟩ =>
    show win1_5.index ⟨16 * ((i 0).val / 512) + 15, ht⟩ (0 : Fin 2) * 512 ≤ (i 0).val ∧ (i 0).val < win1_5.index ⟨16 * ((i 0).val / 512) + 15, ht⟩ (0 : Fin 2) * 512 + 512
    rw [e0']; omega
  | ⟨1, _⟩ =>
    show win1_5.index ⟨16 * ((i 0).val / 512) + 15, ht⟩ (1 : Fin 2) * 512 ≤ (i 1).val ∧ (i 1).val < win1_5.index ⟨16 * ((i 0).val / 512) + 15, ht⟩ (1 : Fin 2) * 512 + 512
    rw [e1]; omega

/-- The output array after the run, read at row `r`, column `o`. -/
theorem out_final (c : Dev nD) (hD : ∀ (r : Fin 8192) (z : Fin 1), (V c main_v0 : FVec Ideal S8192x1 .f32) (ix2 r z) = Cert.GraphConv.dK (V c main_arg0) r) (r : Fin 8192) (o : Fin 512) :
    ((dat1 (F := Ideal) V c).arrAt 5 cfg1.N : FVec Ideal S8192x512 .f32) (ix2 r o)
      = Cert.GraphConv.kerOut (V c main_arg0) (V c main_arg1) (V c main_arg2) r o :=
  (congrFun ((dat1 (F := Ideal) V c).arrAt_eq_of_cover 5 (Gout V c) (flushed5_eq V c hD) cover5) (ix2 r o)).trans rfl

end

end Cert.KernelIdeal.Hand

end
-- ==== Proof.RefValue.lean ====
/-
  The reference's result, index by index: its run's composed term read at row `r`, column `o` is
  `Cert.GraphConv.refOut` of the three argument arrays.

  The stages are read from the inside out.  The identity matrix's entry is the word comparison of the row and
  column counters turned into a number; the adjacency with self loops adds it to `A`; the degree is the row sum
  of that; the normaliser is one over its square root, spread along rows and along columns; the normalised
  adjacency is the product of the three; the two contractions are finite sums; the clamp is `max · 0`.
-/
import proofs.«181658_j16363825397897_1_alg».proof.Proof.Gen.ReferenceIdeal.Run
import proofs.«181658_j16363825397897_1_alg».proof.Proof.Gen.ReferenceIdeal.Read
import proofs.«181658_j16363825397897_1_alg».proof.Proof.Spec
import Idealize.ShloMosaic.Lib.IdealHost

noncomputable section

namespace Cert.ReferenceIdeal.RefValue

open Idealize.ShloMosaic Idealize.ShloMosaic.ValueIdx Cert.GraphConv Cert.ReferenceIdeal Cert.ReferenceIdeal.Read
open scoped BigOperators

/-! ## The identity matrix's entry -/

/-- Two counters below 8192 are equal as 32-bit words exactly when they are equal. -/
theorem word_eq_iff (r k : Fin 8192) : BitVec.ofNat 32 r.val = BitVec.ofNat 32 k.val ↔ r = k := by
  constructor
  · intro h
    have h' := congrArg BitVec.toNat h
    simp only [BitVec.toNat_ofNat] at h'
    apply Fin.ext
    have := r.isLt; have := k.isLt
    omega
  · intro h; rw [h]

/-- The comparison of the row counter (plus the zero word) with the column counter, as a one-bit word. -/
theorem cmp_word (r k : Fin 8192) :
    IntOp.cmpi .eq (IntOp.addi (BitVec.ofNat 32 r.val) 0#32) (BitVec.ofNat 32 k.val) = if r = k then 1#1 else 0#1 := by
  have h0 : IntOp.addi (BitVec.ofNat 32 r.val) 0#32 = BitVec.ofNat 32 r.val := by
    unfold IntOp.addi; exact BitVec.add_zero _
  rw [h0]
  by_cases e : r = k
  · rw [if_pos e, e]; simp [IntOp.cmpi]
  · rw [if_neg e]
    have hne : BitVec.ofNat 32 r.val ≠ BitVec.ofNat 32 k.val := fun h => e ((word_eq_iff r k).mp h)
    have hb : (BitVec.ofNat 32 r.val == BitVec.ofNat 32 k.val) = false := beq_eq_false_iff_ne.mpr hne
    unfold IntOp.cmpi
    simp only [hb]
    rfl

/-- The identity matrix's entry at row `r`, column `k`. -/
theorem eye_apply (r k : Fin 8192) : val_main_v5 (F := Ideal) (ix2 r k) = eyeE r k := by
  rw [val_main_v5_apply, val_main_v4_apply, val_main_v3_apply, val_main_v2_apply, val_main_c_apply, val_main_v0_apply,
    val_main_v1_apply]
  show FloatOps.uitofp (F := Ideal) FTy.f32
      (IntOp.cmpi .eq (IntOp.addi (BitVec.ofNat 32 r.val) 0#32) (BitVec.ofNat 32 k.val)) = eyeE r k
  rw [cmp_word]
  unfold eyeE
  by_cases e : r = k
  · rw [if_pos e, if_pos e]
    show (((1#1 : BitVec 1).toNat : ℝ) : EReal) = 1
    simp
  · rw [if_neg e, if_neg e]
    show (((0#1 : BitVec 1).toNat : ℝ) : EReal) = 0
    simp

/-! ## The adjacency with self loops, the degree, the normaliser -/

/-- The adjacency with self loops at row `r`, column `k`. -/
theorem selfLoops_apply (A : FVec Ideal S8192x8192 .f32) (r k : Fin 8192) :
    val_main_v6 (F := Ideal) A (ix2 r k) = selfLoops A r k := by
  rw [val_main_v6_apply, eye_apply]
  rfl

/-- The index of the row sum's `k`-th term. -/
theorem idx7_eq (r k : Fin 8192) : idx_main_v7 (ix1 r) k = ix2 r k :=
  funext fun a => Fin.ext (by match a with | ⟨0, _⟩ => rfl | ⟨1, _⟩ => rfl)

/-- The degree of row `r`. -/
theorem deg_apply (A : FVec Ideal S8192x8192 .f32) (r : Fin 8192) :
    val_main_v7 (F := Ideal) A (ix1 r) = degR A r := by
  rw [val_main_v7_apply, val_main_cst_apply]
  simp only [Ideal.ofBits_def, Ideal.ofBits_zero_f32, zero_add]
  unfold degR
  refine Finset.sum_congr rfl fun k _ => ?_
  rw [idx7_eq, selfLoops_apply]

/-- The normaliser of row `r`. -/
theorem dinv_apply (A : FVec Ideal S8192x8192 .f32) (r : Fin 8192) :
    val_main_v10 (F := Ideal) A (ix1 r) = dR A r := by
  rw [val_main_v10_apply, val_main_v9_apply, val_main_cst_0_apply, val_main_v8_apply, deg_apply]
  simp only [Ideal.ofBits_def, Ideal.ofBits_one_f32, Ideal.hostDivf_def, Ideal.hostUnary_sqrt_def]
  rfl

/-- The index maps of the normaliser spread along the rows. -/
theorem idx12_eq (r k : Fin 8192) : idx_main_v11 (idx_main_v12 (ix2 r k)) = ix1 r :=
  funext fun a => Fin.ext (by match a with | ⟨0, _⟩ => rfl)

/-- The index maps of the normaliser spread along the columns. -/
theorem idx15_eq (r k : Fin 8192) : idx_main_v14 (idx_main_v15 (ix2 r k)) = ix1 k :=
  funext fun a => Fin.ext (by match a with | ⟨0, _⟩ => rfl)

/-- The normalised adjacency at row `r`, column `k`. -/
theorem normAdj_apply (A : FVec Ideal S8192x8192 .f32) (r k : Fin 8192) :
    val_main_v16 (F := Ideal) A (ix2 r k) = normAdj A r k := by
  rw [val_main_v16_apply, val_main_v13_apply, val_main_v15_apply, val_main_v14_apply, val_main_v12_apply,
    val_main_v11_apply, idx12_eq, idx15_eq, dinv_apply, dinv_apply, selfLoops_apply]
  rfl

/-! ## The two contractions and the clamp -/

theorem lidx17_eq (r : Fin 8192) (c : Fin 512) (k : Fin 8192) : lidx_main_v17 (ix2 r c) k = ix2 r k :=
  funext fun a => Fin.ext (by match a with | ⟨0, _⟩ => rfl | ⟨1, _⟩ => rfl)

theorem ridx17_eq (r : Fin 8192) (c : Fin 512) (k : Fin 8192) : ridx_main_v17 (ix2 r c) k = ix2 k c :=
  funext fun a => Fin.ext (by match a with | ⟨0, _⟩ => rfl | ⟨1, _⟩ => rfl)

theorem lidx18_eq (r : Fin 8192) (o : Fin 512) (c : Fin 512) : lidx_main_v18 (ix2 r o) c = ix2 r c :=
  funext fun a => Fin.ext (by match a with | ⟨0, _⟩ => rfl | ⟨1, _⟩ => rfl)

theorem ridx18_eq (r : Fin 8192) (o : Fin 512) (c : Fin 512) : ridx_main_v18 (ix2 r o) c = ix2 c o :=
  funext fun a => Fin.ext (by match a with | ⟨0, _⟩ => rfl | ⟨1, _⟩ => rfl)

/-- The aggregated features at row `r`, feature `c`. -/
theorem agg_apply (A : FVec Ideal S8192x8192 .f32) (H : FVec Ideal S8192x512 .f32) (r : Fin 8192) (c : Fin 512) :
    val_main_v17 (F := Ideal) A H (ix2 r c) = aggR A H r c := by
  rw [val_main_v17_apply]
  unfold aggR
  refine Finset.sum_congr rfl fun k _ => ?_
  rw [lidx17_eq, ridx17_eq, normAdj_apply]

/-- the reference's result read at row r, column o -/
theorem ref_apply (A : FVec Ideal Cert.ReferenceIdeal.S8192x8192 .f32) (H : FVec Ideal Cert.ReferenceIdeal.S8192x512 .f32)
    (W : FVec Ideal Cert.ReferenceIdeal.S512x512 .f32) (r : Fin 8192) (o : Fin 512) :
    Cert.ReferenceIdeal.Read.val_main_v19 (F := Ideal) A H W (ValueIdx.ix2 r o) = Cert.GraphConv.refOut A H W r o := by
  rw [val_main_v19_apply, val_main_call0_v0_apply, val_main_call0_cst_apply, val_main_v18_apply]
  simp only [Ideal.ofBits_def, Ideal.ofBits_zero_f32, Ideal.maximumf_def]
  unfold refOut
  refine congrArg (max · 0) (Finset.sum_congr rfl fun c _ => ?_)
  rw [lidx18_eq, ridx18_eq, agg_apply]

/-- hence as whole arrays -/
theorem ref_eq (A : FVec Ideal Cert.ReferenceIdeal.S8192x8192 .f32) (H : FVec Ideal Cert.ReferenceIdeal.S8192x512 .f32)
    (W : FVec Ideal Cert.ReferenceIdeal.S512x512 .f32) :
    Cert.ReferenceIdeal.Read.val_main_v19 (F := Ideal) A H W = fun i => Cert.GraphConv.refOut A H W (i 0) (i 1) := by
  funext i
  rw [eq_ix2 i]
  exact ref_apply A H W (i 0) (i 1)

end Cert.ReferenceIdeal.RefValue

end
-- ==== Proof.Bridge.lean ====
/-
  The kernel's arrangement of the graph convolution equals the reference's, when every entry of the
  adjacency, the features and the weights is a real number and every degree is positive.

  Choose real arrays with the given ones as their images in the extended reals.  Both degrees are then the
  real number `s r = ∑ k, (a r k + [r = k])` (the self loop's one is met exactly once in the row), which is
  positive, so the reciprocal square root of it and one over its square root are the same real number
  `d r = (√(s r))⁻¹`.  Everything else is sums and products of reals: the coercion is pushed outwards through
  them on both sides, and the remaining identity of real numbers is the re-indexing of the 16 blocks of 512
  columns as the 8192 columns, along `(j, k) ↦ 512 j + k`, followed by commutativity termwise.
-/
import proofs.«181658_j16363825397897_1_alg».proof.Proof.Spec
import Mathlib.Data.EReal.Basic
import Mathlib.Data.EReal.Operations
import Mathlib.Data.EReal.Inv
import Mathlib.Analysis.SpecialFunctions.Pow.Real
import Mathlib.Algebra.BigOperators.Group.Finset.Basic
import Mathlib.Algebra.BigOperators.Group.Finset.Piecewise
import Mathlib.Algebra.BigOperators.Ring.Finset
import Mathlib.Data.Fintype.BigOperators

noncomputable section

namespace Cert.GraphConv

open Idealize.ShloMosaic Idealize.ShloMosaic.ValueIdx
open scoped BigOperators

/-! ## The coercion of the reals through finite sums and the clamp at zero -/

/-- The image of a finite sum of reals is the sum of the images. -/
theorem coe_finsum {ι : Type} (s : Finset ι) (f : ι → ℝ) :
    ((∑ i ∈ s, f i : ℝ) : EReal) = ∑ i ∈ s, (f i : EReal) := by
  classical
  induction s using Finset.induction_on with
  | empty => simp
  | insert x s hx ih => rw [Finset.sum_insert hx, Finset.sum_insert hx, EReal.coe_add, ih]

/-- The image of the larger of two reals is the larger of the images. -/
theorem coe_max_real (x y : ℝ) : ((max x y : ℝ) : EReal) = max (x : EReal) (y : EReal) :=
  EReal.coe_strictMono.monotone.map_max

/-! ## The 16 blocks of 512 columns are the 8192 columns -/

/-- `(j, k) ↦ 512 j + k` is a bijection from block and offset to column; its inverse is quotient and
    remainder by 512. -/
def colEquiv : Fin 16 × Fin 512 ≃ Fin 8192 where
  toFun p := col p.1 p.2
  invFun n := (⟨n.val / 512, by have := n.isLt; omega⟩, ⟨n.val % 512, by omega⟩)
  left_inv := by
    rintro ⟨⟨j, hj⟩, ⟨k, hk⟩⟩
    refine Prod.ext (Fin.ext ?_) (Fin.ext ?_)
    · show (512 * j + k) / 512 = j
      omega
    · show (512 * j + k) % 512 = k
      omega
  right_inv := by
    rintro ⟨n, hn⟩
    refine Fin.ext ?_
    show 512 * (n / 512) + n % 512 = n
    omega

/-- A sum over the columns, block by block, is the sum over all columns. -/
theorem sum_col (f : Fin 8192 → ℝ) :
    ∑ j : Fin 16, ∑ k : Fin 512, f (col j k) = ∑ n : Fin 8192, f n := by
  rw [← Fintype.sum_prod_type' (fun j k => f (col j k))]
  exact Fintype.sum_equiv colEquiv _ _ (fun _ => rfl)

/-! ## The real arrays and the real counterparts of the two arrangements' pieces -/

/-- Real adjacency, features and weights. -/
abbrev RealA : Type := (⟨2, ![8192, 8192]⟩ : Shape).Idx → ℝ
abbrev RealH : Type := (⟨2, ![8192, 512]⟩ : Shape).Idx → ℝ
abbrev RealW : Type := (⟨2, ![512, 512]⟩ : Shape).Idx → ℝ

/-- The identity matrix's entry, as a real. -/
def eyeRe (r k : Fin 8192) : ℝ := if r = k then 1 else 0

/-- The real adjacency with self loops. -/
def loopsRe (a : RealA) (r k : Fin 8192) : ℝ := a (ix2 r k) + eyeRe r k

/-- The real degree of a row. -/
def degRe (a : RealA) (r : Fin 8192) : ℝ := ∑ k : Fin 8192, loopsRe a r k

/-- The real normaliser, the reciprocal of the degree's square root. -/
def dRe (a : RealA) (r : Fin 8192) : ℝ := (Real.sqrt (degRe a r))⁻¹

theorem eyeE_eq (r k : Fin 8192) : eyeE r k = ((eyeRe r k : ℝ) : EReal) := by
  unfold eyeE eyeRe
  split_ifs
  · exact EReal.coe_one.symm
  · exact EReal.coe_zero.symm

/-- The real degree is the row's sum plus one: the self loop is met exactly once. -/
theorem degRe_eq_add_one (a : RealA) (r : Fin 8192) : degRe a r = (∑ k : Fin 8192, a (ix2 r k)) + 1 := by
  unfold degRe loopsRe eyeRe
  rw [Finset.sum_add_distrib, Fintype.sum_ite_eq]

section
variable {A : ArrA} {a : RealA} (ha : ∀ i, A i = ((a i : ℝ) : EReal))
include ha

theorem selfLoops_eq (r k : Fin 8192) : selfLoops A r k = ((loopsRe a r k : ℝ) : EReal) := by
  rw [selfLoops, loopsRe, ha, eyeE_eq, EReal.coe_add]

/-- The reference's degree is the real degree. -/
theorem degR_eq (r : Fin 8192) : degR A r = ((degRe a r : ℝ) : EReal) := by
  rw [degR, degRe, coe_finsum]
  exact Finset.sum_congr rfl (fun k _ => selfLoops_eq ha r k)

/-- The kernel's degree is the real degree too. -/
theorem degK_eq (r : Fin 8192) : degK A r = ((degRe a r : ℝ) : EReal) := by
  have hsum : ∑ k : Fin 8192, A (ix2 r k) = ∑ k : Fin 8192, ((a (ix2 r k) : ℝ) : EReal) :=
    Finset.sum_congr rfl (fun k _ => ha _)
  rw [degK, hsum, degRe_eq_add_one, EReal.coe_add, coe_finsum, EReal.coe_one]

/-- With a positive degree, one over the square root is the real normaliser. -/
theorem dR_eq (r : Fin 8192) (hpos : 0 < degRe a r) : dR A r = ((dRe a r : ℝ) : EReal) := by
  have hs : Real.sqrt (degRe a r) ≠ 0 := (Real.sqrt_pos.mpr hpos).ne'
  rw [dR, degR_eq ha, Ideal.sqrt_coe, if_neg (not_lt.mpr hpos.le), Ideal.div_coe hs, one_mul, dRe, one_div]

/-- With a positive degree, the reciprocal square root is the real normaliser. -/
theorem dK_eq (r : Fin 8192) (hpos : 0 < degRe a r) : dK A r = ((dRe a r : ℝ) : EReal) := by
  rw [dK, degK_eq ha, Ideal.rsqrt_coe, if_neg (not_lt.mpr hpos.le), if_neg hpos.ne', dRe]

end

/-! ## Both arrangements as real numbers -/

/-- The real accumulator: the 16 block sums added up. -/
def accRe (a : RealA) (h : RealH) (r : Fin 8192) (c : Fin 512) : ℝ :=
  ∑ j : Fin 16, ∑ k : Fin 512, loopsRe a r (col j k) * (h (ix2 (col j k) c) * dRe a (col j k))

/-- The kernel's result, as a real. -/
def kerRe (a : RealA) (h : RealH) (w : RealW) (r : Fin 8192) (o : Fin 512) : ℝ :=
  max (∑ c : Fin 512, (accRe a h r c * dRe a r) * w (ix2 c o)) 0

/-- The real aggregated features. -/
def aggRe (a : RealA) (h : RealH) (r : Fin 8192) (c : Fin 512) : ℝ :=
  ∑ k : Fin 8192, (loopsRe a r k * dRe a r * dRe a k) * h (ix2 k c)

/-- The reference's result, as a real. -/
def refRe (a : RealA) (h : RealH) (w : RealW) (r : Fin 8192) (o : Fin 512) : ℝ :=
  max (∑ c : Fin 512, aggRe a h r c * w (ix2 c o)) 0

section
variable {A : ArrA} {H : ArrH} {W : ArrW} {a : RealA} {h : RealH} {w : RealW}
  (ha : ∀ i, A i = ((a i : ℝ) : EReal)) (hh : ∀ i, H i = ((h i : ℝ) : EReal))
  (hw : ∀ i, W i = ((w i : ℝ) : EReal)) (hpos : ∀ r : Fin 8192, 0 < degRe a r)
include ha hh hpos

/-- One column block's contribution is a real number. -/
theorem partK_eq (r : Fin 8192) (c : Fin 512) (j : Fin 16) :
    partK A H r c j
      = ((∑ k : Fin 512, loopsRe a r (col j k) * (h (ix2 (col j k) c) * dRe a (col j k)) : ℝ) : EReal) := by
  rw [partK, coe_finsum]
  refine Finset.sum_congr rfl (fun k _ => ?_)
  rw [selfLoops_eq ha, hh, dK_eq ha _ (hpos _), ← EReal.coe_mul, ← EReal.coe_mul]

/-- The accumulator is the real accumulator. -/
theorem accK_eq (r : Fin 8192) (c : Fin 512) : accK A H r c = ((accRe a h r c : ℝ) : EReal) := by
  rw [accK, accRe, coe_finsum]
  exact Finset.sum_congr rfl (fun j _ => partK_eq ha hh hpos r c j)

/-- The normalised adjacency is a real number. -/
theorem normAdj_eq (r k : Fin 8192) :
    normAdj A r k = ((loopsRe a r k * dRe a r * dRe a k : ℝ) : EReal) := by
  rw [normAdj, selfLoops_eq ha, dR_eq ha _ (hpos _), dR_eq ha _ (hpos _), ← EReal.coe_mul, ← EReal.coe_mul]

/-- The aggregated features are the real ones. -/
theorem aggR_eq (r : Fin 8192) (c : Fin 512) : aggR A H r c = ((aggRe a h r c : ℝ) : EReal) := by
  rw [aggR, aggRe, coe_finsum]
  refine Finset.sum_congr rfl (fun k _ => ?_)
  rw [normAdj_eq ha hh hpos, hh, ← EReal.coe_mul]

include hw

/-- The kernel's result is the real one. -/
theorem kerOut_eq_real (r : Fin 8192) (o : Fin 512) : kerOut A H W r o = ((kerRe a h w r o : ℝ) : EReal) := by
  have hsum : ∑ c : Fin 512, (accK A H r c * dK A r) * W (ix2 c o)
      = ((∑ c : Fin 512, (accRe a h r c * dRe a r) * w (ix2 c o) : ℝ) : EReal) := by
    rw [coe_finsum]
    refine Finset.sum_congr rfl (fun c _ => ?_)
    rw [accK_eq ha hh hpos, dK_eq ha _ (hpos _), hw, ← EReal.coe_mul, ← EReal.coe_mul]
  rw [kerOut, hsum, kerRe, coe_max_real, EReal.coe_zero]

/-- The reference's result is the real one. -/
theorem refOut_eq_real (r : Fin 8192) (o : Fin 512) : refOut A H W r o = ((refRe a h w r o : ℝ) : EReal) := by
  have hsum : ∑ c : Fin 512, aggR A H r c * W (ix2 c o)
      = ((∑ c : Fin 512, aggRe a h r c * w (ix2 c o) : ℝ) : EReal) := by
    rw [coe_finsum]
    refine Finset.sum_congr rfl (fun c _ => ?_)
    rw [aggR_eq ha hh hpos, hw, ← EReal.coe_mul]
  rw [refOut, hsum, refRe, coe_max_real, EReal.coe_zero]

end

/-! ## The identity of real numbers -/

/-- The accumulator, scaled by the row's normaliser, is the aggregated feature: the blocks are re-indexed as
    all columns, the factor is taken inside the sum, and the terms agree by commutativity. -/
theorem accRe_mul_eq_aggRe (a : RealA) (h : RealH) (r : Fin 8192) (c : Fin 512) :
    accRe a h r c * dRe a r = aggRe a h r c := by
  have hcol : accRe a h r c = ∑ n : Fin 8192, loopsRe a r n * (h (ix2 n c) * dRe a n) :=
    sum_col (fun n => loopsRe a r n * (h (ix2 n c) * dRe a n))
  rw [hcol, aggRe, Finset.sum_mul]
  exact Finset.sum_congr rfl (fun k _ => by ring)

/-- The two real results are equal. -/
theorem kerRe_eq_refRe (a : RealA) (h : RealH) (w : RealW) (r : Fin 8192) (o : Fin 512) :
    kerRe a h w r o = refRe a h w r o := by
  have hsum : ∑ c : Fin 512, (accRe a h r c * dRe a r) * w (ix2 c o)
      = ∑ c : Fin 512, aggRe a h r c * w (ix2 c o) :=
    Finset.sum_congr rfl (fun c _ => by rw [accRe_mul_eq_aggRe])
  rw [kerRe, hsum, refRe]

/-! ## The two arrangements agree -/

/-- With real entries and positive degrees the kernel's arrangement gives the reference's result. -/
theorem kerOut_eq_refOut (A : ArrA) (H : ArrH) (W : ArrW)
    (hA : ∀ i, ∃ x : ℝ, A i = (x : EReal)) (hH : ∀ i, ∃ x : ℝ, H i = (x : EReal)) (hW : ∀ i, ∃ x : ℝ, W i = (x : EReal))
    (hdeg : ∀ r : Fin 8192, 0 < degR A r) (r : Fin 8192) (o : Fin 512) :
    kerOut A H W r o = refOut A H W r o := by
  choose a ha using hA
  choose h hh using hH
  choose w hw using hW
  have hpos : ∀ r : Fin 8192, 0 < degRe a r := fun r => by
    have hr := hdeg r
    rw [degR_eq ha] at hr
    exact EReal.coe_pos.mp hr
  rw [kerOut_eq_real ha hh hw hpos, refOut_eq_real ha hh hw hpos, kerRe_eq_refRe]

end Cert.GraphConv

end
-- ==== Proof.PreFacts.lean ====
/-
  The precondition, read back.

  The precondition is one bit: the conjunction of four statements about the inputs.  Three of them say that every
  entry `x` of the adjacency `A`, of the features `H` and of the weights `W` satisfies `|x| < +∞`; on the extended
  reals, where `|x| = max x (-x)`, that holds exactly when `x` is a real number.  The fourth says that every row sum of
  `A + I`, taken from the initial value `0`, is above `0`; the identity matrix is written there as the comparison of the
  row number with the column number, turned into `1` or `0`, so that row sum is `0 + ∑ k, (A r k + [r = k])`, the degree
  `degR A r` of the specification.

  A conjunction that is `1` has every conjunct `1`, and a reduction by `and` over all indices that is `1` has a `1` at
  every index: that gives each statement at each index.
-/
import proofs.«181658_j16363825397897_1_alg».proof.Pre_finite_inputs
import proofs.«181658_j16363825397897_1_alg».proof.Proof.Gen.Pre_finite_inputs
import proofs.«181658_j16363825397897_1_alg».proof.Proof.Spec
import Idealize.ShloMosaic.Lib.ReduceAll
import Idealize.ShloMosaic.Lib.IdealHost
import Idealize.ShloMosaic.Lib.StableHlo.Predicate
import Idealize.ShloMosaic.PureOps.Ideal.Laws

noncomputable section

namespace Cert.GraphConv

open Idealize.ShloMosaic Idealize.ShloMosaic.ValueIdx
open scoped BigOperators

/-- The rank-zero shape has exactly one index. -/
instance : Subsingleton Cert.Pre_finite_inputs.S_.Idx := ⟨fun a b => funext fun d => d.elim0⟩

/-- An extended real whose absolute value `max x (-x)` is below `+∞` (the pattern `0x7F800000`) is a real number:
    at `⊥` and at `⊤` the absolute value is `⊤`, which is not below itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

open Cert.Pre_finite_inputs in
/-- The index of the matrix that lies over row `r` of the row sums with column coordinate `k` is `(r, k)`. -/
theorem lift_ix (hR : S8192x8192.Reduces [1] S8192) (r k : Fin 8192) : hR.lift (ix1 r) k = ix2 r k := by
  funext c
  apply Fin.ext
  match c with
  | ⟨0, _⟩ => rfl
  | ⟨1, _⟩ => rfl

open Cert.Pre_finite_inputs in
/-- The identity matrix as the precondition writes it: the row number plus zero compared with the column number, as
    32-bit words, the resulting bit read as a number.  Row and column numbers are below `8192 < 2³²`, so their words are
    equal exactly when they are; the entry is `1` on the diagonal and `0` off it. -/
theorem eye_entry (hb : S_.BroadcastsInDim S8192x8192 (![] : Fin 0 → Fin S8192x8192.rank)) (r k : Fin 8192) :
    (uitofp (F := Ideal) .f32 (cmpi .eq (addi (iotaInDim S8192x8192 32 0) (broadcastInDim S8192x8192 ![] hb (constantI S_ 32 0#32)))
      (iotaInDim S8192x8192 32 1))) (ix2 r k) = eyeE r k := by
  show (((IntOp.cmpi .eq (IntOp.addi (BitVec.ofNat 32 r.val) 0#32) (BitVec.ofNat 32 k.val)).toNat : ℝ) : EReal) = eyeE r k
  unfold eyeE
  have ha : IntOp.addi (BitVec.ofNat 32 r.val) 0#32 = BitVec.ofNat 32 r.val := by simp [IntOp.addi]
  rw [ha]
  by_cases hrk : r = k
  · subst hrk
    have h1 : IntOp.cmpi .eq (BitVec.ofNat 32 r.val) (BitVec.ofNat 32 r.val) = 1#1 := StableHlo.Predicate.cmpi_eq_iff.2 rfl
    rw [h1, if_pos rfl]; simp
  · have hne : ¬ IntOp.cmpi .eq (BitVec.ofNat 32 r.val) (BitVec.ofNat 32 k.val) = 1#1 := by
      rw [StableHlo.Predicate.cmpi_eq_iff]
      intro hh
      apply hrk; apply Fin.ext
      have h2 := congrArg BitVec.toNat hh
      simp only [BitVec.toNat_ofNat] at h2
      have := r.isLt; have := k.isLt; omega
    rw [eq_zero_of_ne_one hne, if_neg hrk]; simp

open Cert.Pre_finite_inputs in
/-- Row `r`'s sum over the columns of `A` plus that identity matrix is the degree `∑ k, (A r k + [r = k])`. -/
theorem deg_sum (hb : S_.BroadcastsInDim S8192x8192 (![] : Fin 0 → Fin S8192x8192.rank)) (hR : S8192x8192.Reduces [1] S8192)
    (A : FVec Ideal S8192x8192 .f32) (r : Fin 8192) :
    (∑ k : Fin (S8192x8192.size 1), addf A (uitofp (F := Ideal) .f32 (cmpi .eq (addi (iotaInDim S8192x8192 32 0)
        (broadcastInDim S8192x8192 ![] hb (constantI S_ 32 0#32))) (iotaInDim S8192x8192 32 1))) (hR.lift (ix1 r) k)) = degR A r := by
  show (∑ k : Fin 8192, addf A (uitofp (F := Ideal) .f32 (cmpi .eq (addi (iotaInDim S8192x8192 32 0)
        (broadcastInDim S8192x8192 ![] hb (constantI S_ 32 0#32))) (iotaInDim S8192x8192 32 1))) (hR.lift (ix1 r) k)) = ∑ k : Fin 8192, selfLoops A r k
  refine Finset.sum_congr rfl fun k _ => ?_
  rw [lift_ix, addf_apply, eye_entry]
  rfl

/-- THE PRECONDITION DECODED: every entry of `A`, `H` and `W` is a real number, and every degree is positive. -/
theorem pre_facts [hP : Cert.Pre_finite_inputs.Facts]
    (A : FVec Ideal Cert.Pre_finite_inputs.S8192x8192 .f32) (H : FVec Ideal Cert.Pre_finite_inputs.S8192x512 .f32) (W : FVec Ideal Cert.Pre_finite_inputs.S512x512 .f32)
    (h : Cert.Pre_finite_inputs.fn (F := Ideal) A H W = fun _ => 1#1) :
    (∀ i, ∃ x : ℝ, A i = (x : EReal)) ∧ (∀ i, ∃ x : ℝ, H i = (x : EReal)) ∧ (∀ i, ∃ x : ℝ, W i = (x : EReal)) ∧ ∀ r : Fin 8192, 0 < degR A r := by
  have e := congrFun h ValueIdx.ix0
  dsimp only [Cert.Pre_finite_inputs.fn, Cert.Pre_finite_inputs.fn_part1] at e
  -- the four conjuncts
  simp only [Idealize.ShloMosaic.andi, IntOp.andi_eq_one] at e
  obtain ⟨⟨⟨eA, eH⟩, eW⟩, eD⟩ := e
  refine ⟨fun i => ?_, fun i => ?_, fun i => ?_, fun r => ?_⟩
  · exact real_of_abs_lt_top (A i) (Host.reduce_andi_all _ _ _ _ _ eA i)
  · exact real_of_abs_lt_top (H i) (Host.reduce_andi_all _ _ _ _ _ eH i)
  · exact real_of_abs_lt_top (W i) (Host.reduce_andi_all _ _ _ _ _ eW i)
  · -- row r's comparison: 0 < 0 + ∑ k, (A r k + [r = k])
    have hr := Host.reduce_andi_all _ _ _ _ _ eD (ix1 r)
    have hR : Cert.Pre_finite_inputs.S8192x8192.Reduces [1] Cert.Pre_finite_inputs.S8192 := by decide
    rw [cmpf_apply, hostReduceAdd_apply, Ideal.hostReduceAdd_single _ hR, deg_sum] at hr
    have hr' : Ideal.cmp .ogt (Ideal.ofBits .f32 0x00000000#32 + degR A r) (Ideal.ofBits .f32 0x00000000#32) = 1#1 := hr
    rw [Ideal.ofBits_zero_f32, zero_add] at hr'
    unfold Ideal.cmp at hr'
    simpa [StableHlo.Predicate.ofBool_eq_one_iff] using hr'

end Cert.GraphConv

end
-- ==== Proof.lean ====
/-
  Graph convolution with symmetric normalisation: the certificate's five claims.

  The kernel computes the row degrees `(∑ k, A r k) + 1` and their reciprocal square roots in a first pass over the
  adjacency matrix, then walks a 16 × 16 grid of 512 × 512 blocks accumulating `(A + I)_blk · (H_blk ∘ d)` over the column
  blocks and, at the last one, scales the accumulator by the row normaliser, multiplies by the weights and clamps at
  zero.  The reference adds the identity, sums the rows, takes `1 / √deg`, normalises the whole matrix and multiplies
  through.  Over the extended reals the two agree wherever every input is a real number and every degree is positive
  (the precondition): both normalisers are then the real `(√deg)⁻¹`, and the rest is the re-association of a finite
  sum of reals (`Cert.GraphConv.kerOut_eq_refOut`).

  The frames: both kernel programs run through the launch of a two-region program (`Hand.frame`, at any float
  instance); the reference's is its run with the result dropped.  The idealisation rewrote nothing, so `preserves` is
  trivial.  The value claim joins the kernel's run with its output array named (`Hand.run_value`, the array read index
  by index in `Hand.out_final` over `Hand.dinv_final`), the reference's run read index by index (`RefValue.ref_apply`),
  the precondition decoded (`GraphConv.pre_facts`) and the algebraic bridge.
-/
import proofs.«181658_j16363825397897_1_alg».proof.Defs
import proofs.«181658_j16363825397897_1_alg».proof.Proof.Gen.Kernel
import proofs.«181658_j16363825397897_1_alg».proof.Proof.Gen.KernelIdeal
import proofs.«181658_j16363825397897_1_alg».proof.Proof.Gen.ReferenceIdeal
import proofs.«181658_j16363825397897_1_alg».proof.Proof.Gen.Pre_finite_inputs
import proofs.«181658_j16363825397897_1_alg».proof.Proof.KB.Run
import proofs.«181658_j16363825397897_1_alg».proof.Proof.KI.Run
import proofs.«181658_j16363825397897_1_alg».proof.Proof.KI.DegValue
import proofs.«181658_j16363825397897_1_alg».proof.Proof.KI.GcValue
import proofs.«181658_j16363825397897_1_alg».proof.Proof.RefValue
import proofs.«181658_j16363825397897_1_alg».proof.Proof.Bridge
import proofs.«181658_j16363825397897_1_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level program runs and keeps its arguments. -/
theorem frame_k : Cert.frame_Kernel := fun m ρ _ => Cert.Kernel.Hand.frame (F := Bits) m ρ

/-- So does the idealised one. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

open Cert.KernelIdeal Cert.KernelIdeal.Gen Cert.KernelIdeal.Hand in
/-- When the second region is entered the normaliser's array holds the reciprocal square roots of the kernel's degrees. -/
theorem normaliser_entry (m : (ℓ : Loc nD τ sig) → Buf (Elt Ideal) ℓ) (c : Dev nD) (r : Fin 8192) (z : Fin 1) :
    (Hand.V1 m c main_v0 : FVec Ideal S8192x1 .f32) (ix2 r z) = Cert.GraphConv.dK (Hand.V1 m c main_arg0) r := by
  have h0 : Hand.V1 m c main_v0 = (dat0 (F := Ideal) (Hand.V0 m) c).arrAt 1 cfg0.N := W1_main_v0 m c
  have h1 : Hand.V1 m c main_arg0 = Hand.V0 m c main_arg0 := W1_main_arg0 m c
  rw [h0, h1]
  exact dinv_final (Hand.V0 m) c r z

open Cert.KernelIdeal Cert.KernelIdeal.Gen Cert.KernelIdeal.Hand in
/-- Both idealised programs run, keep their arguments, and end with the same result array: the kernel's, read index by
    index, is `kerOut` of the three argument arrays, the reference's `refOut`, and under the precondition the two are
    one function. -/
theorem algebraic : Cert.algebraic_KernelIdeal_ReferenceIdeal := by
  intro m ρ m' ρ' hpre hagree
  refine ⟨fun c => (dat1 (F := Ideal) (Hand.V1 m) c).arrAt 5 cfg1.N, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  obtain ⟨hA, hH, hW, hdeg⟩ := Cert.GraphConv.pre_facts _ _ _ (hpre c)
  have a0 : Hand.V1 m c main_arg0 = m ((c.tc : Thread nD τ).loc main_arg0) := W1_main_arg0 m c
  have a1 : Hand.V1 m c main_arg1 = m ((c.tc : Thread nD τ).loc main_arg1) := W1_main_arg1 m c
  have a2 : Hand.V1 m c main_arg2 = m ((c.tc : Thread nD τ).loc main_arg2) := W1_main_arg2 m c
  funext i
  obtain ⟨r, o, rfl⟩ : ∃ (r : Fin 8192) (o : Fin 512), i = ix2 r o := ⟨i 0, i 1, eq_ix2 i⟩
  refine (Cert.ReferenceIdeal.RefValue.ref_apply _ _ _ r o).trans ?_
  refine Eq.trans ?_ (out_final (Hand.V1 m) c (normaliser_entry m c) r o).symm
  rw [a0, a1, a2]
  exact (Cert.GraphConv.kerOut_eq_refOut _ _ _ hA hH hW hdeg r o).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
